-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S4x128 : Shape := ⟨2, ![4, 128]⟩
abbrev S32x128 : Shape := ⟨2, ![32, 128]⟩
abbrev S2x1600000 : Shape := ⟨2, ![2, 1600000]⟩
abbrev S1600000 : Shape := ⟨1, ![1600000]⟩
abbrev S1000000 : Shape := ⟨1, ![1000000]⟩
abbrev S4x32 : Shape := ⟨2, ![4, 32]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S4x128 : S_.BroadcastsInDim S4x128 (![] : Fin 0 → Fin S4x128.rank)
  reducesTo_S4x128_S_d0_1 : S4x128.ReducesTo [0, 1] S_
  bcast_S_S32x128 : S_.BroadcastsInDim S32x128 (![] : Fin 0 → Fin S32x128.rank)
  reducesTo_S32x128_S_d0_1 : S32x128.ReducesTo [0, 1] S_
  bcast_S_S1000000 : S_.BroadcastsInDim S1000000 (![] : Fin 0 → Fin S1000000.rank)
  reducesTo_S1000000_S_d0 : S1000000.ReducesTo [0] S_
  bcast_S_S4x32 : S_.BroadcastsInDim S4x32 (![] : Fin 0 → Fin S4x32.rank)
  reducesTo_S4x32_S_d0_1 : S4x32.ReducesTo [0, 1] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v46 : IVec S_ 1) (main_v51 : IVec S1000000 1) : IVec S_ 1 :=
  let main_c_18 : IVec S_ 1 := constantI S_ 1 1#1
  let main_v52 : IVec S_ 1 := (fun x v => Host.reduce IntOp.andi x v reducesTo_S1000000_S_d0 h_S_) main_v51 main_c_18
  let main_v53 : IVec S_ 1 := andi main_v46 main_v52
  main_v53

def fn_part2 {F : FTy → Type} [FloatOps F] (main_arg5 : IVec S1600000 32) (main_arg7 : IVec S1000000 32) (main_v28 : IVec S_ 1) (main_v32 : IVec S1600000 1) (main_v34 : IVec S1600000 32) : IVec S_ 1 :=
  let main_c_11 : IVec S_ 32 := constantI S_ 32 100000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  let main_c_13 : IVec S_ 32 := constantI S_ 32 0#32
  let main_v40 : IVec S1600000 32 := broadcastInDim S1600000 ![] bcast_S_S1600000 main_c_13
  let main_v41 : IVec S1600000 1 := cmpi .sge main_arg5 main_v40
  let main_c_14 : IVec S_ 32 := constantI S_ 32 32#32
  let main_v42 : IVec S1600000 32 := broadcastInDim S1600000 ![] bcast_S_S1600000 main_c_14
  let main_v43 : IVec S1600000 1 := cmpi .slt main_arg5 main_v42
  let main_v44 : IVec S1600000 1 := andi main_v41 main_v43
  let main_c_15 : IVec S_ 1 := constantI S_ 1 1#1
  let main_v45 : IVec S_ 1 := (fun x v => Host.reduce IntOp.andi x v reducesTo_S1600000_S_d0 h_S_) main_v44 main_c_15
  let main_v46 : IVec S_ 1 := andi main_v39 main_v45
  let main_c_16 : IVec S_ 32 := constantI S_ 32 0#32
  let main_v47 : IVec S1000000 32 := broadcastInDim S1000000 ![] bcast_S_S1000000 main_c_16
  let main_v48 : IVec S1000000 1 := cmpi .sge main_arg7 main_v47
  let main_c_17 : IVec S_ 32 := constantI S_ 32 100000#32
  let main_v49 : IVec S1000000 32 := broadcastInDim S1000000 ![] bcast_S_S1000000 main_c_17
  let main_v50 : IVec S1000000 1 := cmpi .slt main_arg7 main_v49
  let main_v51 : IVec S1000000 1 := andi main_v48 main_v50
  fn_part3 (F := F) main_v46 main_v51

def fn_part1 {F : FTy → Type} [FloatOps F] (main_arg4 : IVec S2x1600000 32) (main_arg5 : IVec S1600000 32) (main_arg7 : IVec S1000000 32) (main_arg8 : FVec F S1000000 .f32) (main_arg9 : FVec F S4x32 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S1000000 .f32 := Host.absf main_arg8
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S4x32 .f32 := Host.absf main_arg9
  let main_cst_8 : FVec F S_ .f32 := constant S_ .f32 0x7F800000#32
  let main_v25 : FVec F S4x32 .f32 := broadcastInDim S4x32 ![] bcast_S_S4x32 main_cst_8
  let main_v26 : IVec S4x32 1 := cmpf .olt main_v24 main_v25
  let main_c_9 : IVec S_ 1 := constantI S_ 1 1#1
  let main_v27 : IVec S_ 1 := (fun x v => Host.reduce IntOp.andi x v reducesTo_S4x32_S_d0_1 h_S_) main_v26 main_c_9
  let main_v28 : IVec S_ 1 := andi main_v23 main_v27
  let main_v29 : IVec S1x1600000 32 := (extractStridedSlice S1x1600000 ![1, 0] · slices_S2x1600000_S1x1600000_1_0) main_arg4
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![1, 0] · slices_S2x1600000_S1x1600000_1_0) main_arg4
  let main_v34 : IVec S1600000 32 := shapeCast S1600000 main_v33 shapeCasts_S1x1600000_S1600000
  fn_part2 (F := F) main_arg5 main_arg7 main_v28 main_v32 main_v34

def fn {F : FTy → Type} [FloatOps F] (main_arg0 : FVec F S100000x128 .f32) (main_arg1 : FVec F S50000x128 .f32) (main_arg2 : FVec F S4x128 .f32) (main_arg3 : FVec F S32x128 .f32) (main_arg4 : IVec S2x1600000 32) (main_arg5 : IVec S1600000 32) (main_arg6 : IVec S1000000 32) (main_arg7 : IVec S1000000 32) (main_arg8 : FVec F S1000000 .f32) (main_arg9 : FVec F S4x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg7 main_arg8 main_arg9 main_v13 main_v16
-- ==== Kernel.lean ====
abbrev S100000x128 : Shape := ⟨2, ![100000, 128]⟩
abbrev S50000x128 : Shape := ⟨2, ![50000, 128]⟩
abbrev S4x128 : Shape := ⟨2, ![4, 128]⟩
abbrev S32x128 : Shape := ⟨2, ![32, 128]⟩
abbrev S2x1600000 : Shape := ⟨2, ![2, 1600000]⟩
abbrev S1600000 : Shape := ⟨1, ![1600000]⟩
abbrev S1000000 : Shape := ⟨1, ![1000000]⟩
abbrev S4x32 : Shape := ⟨2, ![4, 32]⟩
abbrev S1x1600000 : Shape := ⟨2, ![1, 1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S6400x128 : Shape := ⟨2, ![6400, 128]⟩
abbrev S6400x1 : Shape := ⟨2, ![6400, 1]⟩
abbrev S6400x32 : Shape := ⟨2, ![6400, 32]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S1000000x1 : Shape := ⟨2, ![1000000, 1]⟩
abbrev S1000000x128 : Shape := ⟨2, ![1000000, 128]⟩
abbrev S4 : Shape := ⟨1, ![4]⟩
abbrev S4x1 : Shape := ⟨2, ![4, 1]⟩
abbrev S128x4 : Shape := ⟨2, ![128, 4]⟩
abbrev S5000x4 : Shape := ⟨2, ![5000, 4]⟩
abbrev S5000 : Shape := ⟨1, ![5000]⟩

abbrev nBuf : Space → Nat
  | .hbm => 106
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S4x128, .f32⟩
  | .hbm, ⟨3, _⟩ => ⟨S32x128, .f32⟩
  | .hbm, ⟨4, _⟩ => ⟨S2x1600000, .i32⟩
  | .hbm, ⟨5, _⟩ => ⟨S1600000, .i32⟩
  | .hbm, ⟨6, _⟩ => ⟨S1000000, .i32⟩
  | .hbm, ⟨7, _⟩ => ⟨S1000000, .i32⟩
  | .hbm, ⟨8, _⟩ => ⟨S1000000, .f32⟩
  | .hbm, ⟨9, _⟩ => ⟨S4x32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x128, .f32⟩
  | .hbm, ⟨33, _⟩ => ⟨S1600000x128, .i1⟩
  | .hbm, ⟨34, _⟩ => ⟨S_, .f32⟩
  | .hbm, ⟨35, _⟩ => ⟨S1600000x128, .f32⟩
  | .hbm, ⟨36, _⟩ => ⟨S1600000x128, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S_, .i32⟩
  | .hbm, ⟨60, _⟩ => ⟨S1000000, .i32⟩
  | .hbm, ⟨61, _⟩ => ⟨S1000000, .i1⟩
  | .hbm, ⟨62, _⟩ => ⟨S_, .i32⟩
  | .hbm, ⟨63, _⟩ => ⟨S1000000, .i32⟩
  | .hbm, ⟨64, _⟩ => ⟨S1000000, .i32⟩
  | .hbm, ⟨65, _⟩ => ⟨S1000000, .i32⟩
  | .hbm, ⟨66, _⟩ => ⟨S1000000x1, .i32⟩
  | .hbm, ⟨67, _⟩ => ⟨S1, .i32⟩
  | .hbm, ⟨68, _⟩ => ⟨S_, .i32⟩
  | .hbm, ⟨69, _⟩ => ⟨S1000000x1, .i32⟩
  | .hbm, ⟨70, _⟩ => ⟨S1000000x1, .i1⟩
  | .hbm, ⟨71, _⟩ => ⟨S1x1, .i32⟩
  | .hbm, ⟨72, _⟩ => ⟨S1000000x1, .i32⟩
  | .hbm, ⟨73, _⟩ => ⟨S1000000x1, .i1⟩
  | .hbm, ⟨74, _⟩ => ⟨S1000000x1, .i1⟩
  | .hbm, ⟨75, _⟩ => ⟨S_, .i1⟩
  | .hbm, ⟨76, _⟩ => ⟨S1000000, .i1⟩
  | .hbm, ⟨77, _⟩ => ⟨S1000000x128, .f32⟩
  | .hbm, ⟨78, _⟩ => ⟨S1000000x128, .i1⟩
  | .hbm, ⟨79, _⟩ => ⟨S_, .f32⟩
  | .hbm, ⟨80, _⟩ => ⟨S1000000x128, .f32⟩
  | .hbm, ⟨81, _⟩ => ⟨S1000000x128, .f32⟩
  | .hbm, ⟨82, _⟩ => ⟨S1000000x1, .f32⟩
  | .hbm, ⟨83, _⟩ => ⟨S1000000x128, .f32⟩
  | .hbm, ⟨84, _⟩ => ⟨S1000000x128, .f32⟩
  | .hbm, ⟨85, _⟩ => ⟨S_, .f32⟩
  | .hbm, ⟨86, _⟩ => ⟨S50000x128, .f32⟩
  | .hbm, ⟨87, _⟩ => ⟨S1000000x1, .i32⟩
  | .hbm, ⟨88, _⟩ => ⟨S50000x128, .f32⟩
  | .hbm, ⟨89, _⟩ => ⟨S_, .f32⟩
  | .hbm, ⟨90, _⟩ => ⟨S4, .f32⟩
  | .hbm, ⟨91, _⟩ => ⟨S_, .f32⟩
  | .hbm, ⟨92, _⟩ => ⟨S4, .f32⟩
  | .hbm, ⟨93, _⟩ => ⟨S4, .f32⟩
  | .hbm, ⟨94, _⟩ => ⟨S4x1, .f32⟩
  | .hbm, ⟨95, _⟩ => ⟨S4x32, .f32⟩
  | .hbm, ⟨96, _⟩ => ⟨S4x32, .f32⟩
  | .hbm, ⟨97, _⟩ => ⟨S4x32, .f32⟩
  | .hbm, ⟨98, _⟩ => ⟨S_, .f32⟩
  | .hbm, ⟨99, _⟩ => ⟨S4, .f32⟩
  | .hbm, ⟨100, _⟩ => ⟨S4x1, .f32⟩
  | .hbm, ⟨101, _⟩ => ⟨S4x32, .f32⟩
  | .hbm, ⟨102, _⟩ => ⟨S4x32, .f32⟩
  | .hbm, ⟨103, _⟩ => ⟨S4x128, .f32⟩
  | .hbm, ⟨104, _⟩ => ⟨S128x4, .f32⟩
  | .hbm, ⟨105, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S6400x1, .i32⟩
  | .local _ .vmem, ⟨3, _⟩ => ⟨S6400x1, .i32⟩
  | .local _ .vmem, ⟨4, _⟩ => ⟨S32x128, .f32⟩
  | .local _ .vmem, ⟨5, _⟩ => ⟨S6400x128, .f32⟩
  | .local _ .vmem, ⟨6, _⟩ => ⟨S6400x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x4, .f32⟩
  | .local _ .vmem, ⟨16, _⟩ => ⟨S4x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_c : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_cst_2 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_cst_3 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_cst_4 : Ref sig .tc := ⟨.hbm, 89, rfl⟩
abbrev main_v24 : Ref sig .tc := ⟨.hbm, 90, rfl⟩
abbrev main_cst_5 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_cst_6 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  iota_S6400x32_d1_w32 : S6400x32.Iotas .tc 32 [1]
  broadcasts_S6400x1_S6400x32 : S6400x1.Broadcasts S6400x32
  natLt_1_32 : 1 < 32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  reducesTo_S4x32_S4_d1 : S4x32.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x32_0_1 : S4x1.BroadcastsInDim S4x32 (![0, 1] : Fin 2 → Fin S4x32.rank)
  transposes_S4x128_S128x4_1_0 : S4x128.Transposes [1, 0] S128x4
  inb_S128x4_S128x4_0_0 : ∀ a, (![0, 0] : Fin 2 → Nat) a + S128x4.size a ≤ S128x4.size a
  h_S128x4 : 0 < S128x4.numel
  shapeCasts_S128x4_S128x4 : S128x4.ShapeCasts S128x4
  reduces_S5000x4_S5000 : S5000x4.Reduces [1] S5000
  shapeCasts_S5000_S5000x1 : S5000.ShapeCasts S5000x1
  broadcasts_S5000x1_S5000x4 : S5000x1.Broadcasts S5000x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  gather_S100000x128_S1600000x1_S1600000x128_1_0_n_n_0_1_1128_wf : GatherDims.WF S100000x128 S1600000x1 S1600000x128 [1] [0] [] [0] [] 1 ![1, 128]
  dot_S6400x32_S32x128_S6400x128_1_0_0_1_n_n_wf : DotDims.WF S6400x32 S32x128 S6400x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S4x32_S32x128_S4x128_1_0_0_1_n_n_wf : DotDims.WF S4x32 S32x128 S4x128 [1] [0] [0] [1] [] []
  dot_S5000x128_S128x4_S5000x4_1_0_0_1_n_n_wf : DotDims.WF S5000x128 S128x4 S5000x4 [1] [0] [0] [1] [] []
  dot_S5000x4_S4x128_S5000x128_1_0_0_1_n_n_wf : DotDims.WF S5000x4 S4x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S1600000x1.size a
  hwx0_1 : ∀ i : grid0.Coords, EltTy.bits .i32 = 32 ∨ (Rect.block (s := S1600000x1) S6400x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S1600000x128.size a
  hwx0_3 : ∀ i : grid0.Coords, EltTy.bits .f32 = 32 ∨ (Rect.block (s := S1600000x128) S6400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4.size a ≤ S128x4.size a
  hwx2_1 : ∀ i : grid2.Coords, EltTy.bits .f32 = 32 ∨ (Rect.block (s := S128x4) S128x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x128.size a
  hwx2_2 : ∀ i : grid2.Coords, EltTy.bits .f32 = 32 ∨ (Rect.block (s := S4x128) S4x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S4x32_S32x128_S4x128_1_0_0_1_n_n : DotDims S4x32 S32x128 S4x128 where
  lhsContracting := [1]
  rhsContracting := [0]
  lhsNonContracting := [0]
  rhsNonContracting := [1]
  lhsBatch := []
  rhsBatch := []
  wf := dot_S4x32_S32x128_S4x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf

abbrev win0_0 : Pipeline.Window sig grid0 :=
  Pipeline.Window.ofSpec (Memref.whole main_v4) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S6400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S128x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S4x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S4x128 : Shape := ⟨2, ![4, 128]⟩
abbrev S32x128 : Shape := ⟨2, ![32, 128]⟩
abbrev S2x1600000 : Shape := ⟨2, ![2, 1600000]⟩
abbrev S1600000 : Shape := ⟨1, ![1600000]⟩
abbrev S1000000 : Shape := ⟨1, ![1000000]⟩
abbrev S4x32 : Shape := ⟨2, ![4, 32]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x4 : Shape := ⟨2, ![128, 4]⟩
abbrev S50000x4 : Shape := ⟨2, ![50000, 4]⟩
abbrev S50000 : Shape := ⟨1, ![50000]⟩
abbrev S50000x1 : Shape := ⟨2, ![50000, 1]⟩
abbrev S1000000x1 : Shape := ⟨2, ![1000000, 1]⟩
abbrev S1000000x128 : Shape := ⟨2, ![1000000, 128]⟩
abbrev S4 : Shape := ⟨1, ![4]⟩
abbrev S4x1 : Shape := ⟨2, ![4, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S4x128, .f32⟩
  | .hbm, ⟨3, _⟩ => ⟨S32x128, .f32⟩
  | .hbm, ⟨4, _⟩ => ⟨S2x1600000, .i32⟩
  | .hbm, ⟨5, _⟩ => ⟨S1600000, .i32⟩
  | .hbm, ⟨6, _⟩ => ⟨S1000000, .i32⟩
  | .hbm, ⟨7, _⟩ => ⟨S1000000, .i32⟩
  | .hbm, ⟨8, _⟩ => ⟨S1000000, .f32⟩
  | .hbm, ⟨9, _⟩ => ⟨S4x32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S128x4, .f32⟩
  | .hbm, ⟨50, _⟩ => ⟨S50000x4, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x4, .f32⟩
  | .hbm, ⟨58, _⟩ => ⟨S50000x4, .f32⟩
  | .hbm, ⟨59, _⟩ => ⟨S50000x4, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x4, .f32⟩
  | .hbm, ⟨64, _⟩ => ⟨S50000x4, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x128, .f32⟩
  | .hbm, ⟨74, _⟩ => ⟨S1000000x1, .f32⟩
  | .hbm, ⟨75, _⟩ => ⟨S1000000x128, .f32⟩
  | .hbm, ⟨76, _⟩ => ⟨S1000000x128, .f32⟩
  | .hbm, ⟨77, _⟩ => ⟨S_, .f32⟩
  | .hbm, ⟨78, _⟩ => ⟨S50000x128, .f32⟩
  | .hbm, ⟨79, _⟩ => ⟨S1000000x1, .i32⟩
  | .hbm, ⟨80, _⟩ => ⟨S50000x128, .f32⟩
  | .hbm, ⟨81, _⟩ => ⟨S_, .f32⟩
  | .hbm, ⟨82, _⟩ => ⟨S4, .f32⟩
  | .hbm, ⟨83, _⟩ => ⟨S_, .f32⟩
  | .hbm, ⟨84, _⟩ => ⟨S4, .f32⟩
  | .hbm, ⟨85, _⟩ => ⟨S4, .f32⟩
  | .hbm, ⟨86, _⟩ => ⟨S4x1, .f32⟩
  | .hbm, ⟨87, _⟩ => ⟨S4x32, .f32⟩
  | .hbm, ⟨88, _⟩ => ⟨S4x32, .f32⟩
  | .hbm, ⟨89, _⟩ => ⟨S4x32, .f32⟩
  | .hbm, ⟨90, _⟩ => ⟨S_, .f32⟩
  | .hbm, ⟨91, _⟩ => ⟨S4, .f32⟩
  | .hbm, ⟨92, _⟩ => ⟨S4x1, .f32⟩
  | .hbm, ⟨93, _⟩ => ⟨S4x32, .f32⟩
  | .hbm, ⟨94, _⟩ => ⟨S4x32, .f32⟩
  | .hbm, ⟨95, _⟩ => ⟨S4x128, .f32⟩
  | .hbm, ⟨96, _⟩ => ⟨S50000x128, .f32⟩
  | .hbm, ⟨97, _⟩ => ⟨S50000x128, .f32⟩
  | .hbm, ⟨98, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S4x128_S128x4_1_0 : S4x128.Transposes [1, 0] S128x4
  reducesTo_S50000x4_S50000_d1 : S50000x4.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  reducesTo_S4x32_S4_d1 : S4x32.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x32_0_1 : S4x1.BroadcastsInDim S4x32 (![0, 1] : Fin 2 → Fin S4x32.rank)
  gather_S100000x128_S1600000x1_S1600000x128_1_0_n_n_0_1_1128_wf : GatherDims.WF S100000x128 S1600000x1 S1600000x128 [1] [0] [] [0] [] 1 ![1, 128]
  gather_S32x128_S1600000x1_S1600000x128_1_0_n_n_0_1_1128_wf : GatherDims.WF S32x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S50000x128_S128x4_S50000x4_1_0_0_1_n_n_wf : DotDims.WF S50000x128 S128x4 S50000x4 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S4x32_S32x128_S4x128_1_0_0_1_n_n_wf : DotDims.WF S4x32 S32x128 S4x128 [1] [0] [0] [1] [] []
  dot_S50000x4_S4x128_S50000x128_1_0_0_1_n_n_wf : DotDims.WF S50000x4 S4x128 S50000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S32x128_S1600000x1_S1600000x128_1_0_n_n_0_1_1128 : GatherDims S32x128 S1600000x1 S1600000x128 where
  offsetDims := [1]
  collapsedSliceDims := [0]
  operandBatchingDims := []
  startIndicesBatchingDims := []
  startIndexMap := [0]
  indexVectorDim := 1
  sliceSizes := ![1, 128]
  wf := gather_S32x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S4x32_S32x128_S4x128_1_0_0_1_n_n : DotDims S4x32 S32x128 S4x128 where
  lhsContracting := [1]
  rhsContracting := [0]
  lhsNonContracting := [0]
  rhsNonContracting := [1]
  lhsBatch := []
  rhsBatch := []
  wf := dot_S4x32_S32x128_S4x128_1_0_0_1_n_n_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf

class Facts : Prop extends Facts₀ where

variable [Facts]
-- ==== Proof.Pre.lean ====
/-
  The index ranges the precondition states, read back out of its printed predicate: every tail index and every
  interaction column is a row of the [100000, 128] entity table, every edge type a row of the [32, 128] relation table.
  A word w with 0 ≤ w < N signed (N below 2^31) is below N unsigned.
-/
import proofs.«421324_j60078002536942_3_alg».proof.Defs
import proofs.«421324_j60078002536942_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

set_option maxRecDepth 16384

noncomputable section

namespace Cert.KernelIdeal.PreRead

open Cert.KernelIdeal
open Idealize.ShloMosaic Idealize.ShloMosaic.ValueIdx Idealize.SL.Sem

variable [hP : Cert.Pre_finite_inputs.Facts]
variable (m : (ℓ : Loc nD τ sig) → Buf (Elt Ideal) ℓ)

/-- The scalar shape has one index. -/
private instance scalarIdx : Subsingleton Cert.Pre_finite_inputs.S_.Idx := ⟨fun a b => funext fun d => d.elim0⟩

/-- A word w with 0 ≤ w < n signed, n below 2^31, is below n unsigned. -/
private theorem word_lt (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz] at h0
  have h32 := w.isLt
  rw [BitVec.toInt_eq_toNat_cond] at h0 h1
  by_cases hc : 2 * w.toNat < 2 ^ 32
  · rw [if_pos hc] at h0 h1; omega
  · rw [if_neg hc] at h0 h1; omega

/-- The last conjunct of the predicate: the conjunction so far, and the interaction columns' comparisons, all ones. -/
private theorem part3_read (v46 : IVec Cert.Pre_finite_inputs.S_ 1) (v51 : IVec Cert.Pre_finite_inputs.S1000000 1)
    (h : Cert.Pre_finite_inputs.fn_part3 (F := Ideal) v46 v51 ix0 = 1#1) :
    v46 ix0 = 1#1 ∧ ∀ i, v51 i = 1#1 := by
  dsimp only [Cert.Pre_finite_inputs.fn_part3] at h
  change IntOp.andi _ _ = 1#1 at h
  obtain ⟨h1, h2⟩ := IntOp.andi_eq_one.1 h
  exact ⟨h1, fun i => Host.reduce_andi_all _ _ _ _ _ h2 i⟩

/-- The middle of the predicate: the tail words' two comparisons, the edge types and the interaction columns in range. -/
private theorem part2_read (a5 : IVec Cert.Pre_finite_inputs.S1600000 32) (a7 : IVec Cert.Pre_finite_inputs.S1000000 32)
    (v28 : IVec Cert.Pre_finite_inputs.S_ 1) (v32 : IVec Cert.Pre_finite_inputs.S1600000 1) (v34 : IVec Cert.Pre_finite_inputs.S1600000 32)
    (h : Cert.Pre_finite_inputs.fn_part2 (F := Ideal) a5 a7 v28 v32 v34 ix0 = 1#1) :
    (∀ i, v32 i = 1#1 ∧ IntOp.cmpi .slt (v34 i) 100000#32 = 1#1) ∧ (∀ i, (a5 i).toNat < 32) ∧ (∀ i, (a7 i).toNat < 100000) := by
  dsimp only [Cert.Pre_finite_inputs.fn_part2] at h
  obtain ⟨h46, h51⟩ := part3_read _ _ h
  change IntOp.andi _ _ = 1#1 at h46
  obtain ⟨h39, h45⟩ := IntOp.andi_eq_one.1 h46
  change IntOp.andi _ _ = 1#1 at h39
  obtain ⟨-, h38⟩ := IntOp.andi_eq_one.1 h39
  refine ⟨fun i => ?_, fun i => ?_, fun i => ?_⟩
  · have e := Host.reduce_andi_all _ _ _ _ _ h38 i
    change IntOp.andi _ _ = 1#1 at e
    exact IntOp.andi_eq_one.1 e
  · have e := Host.reduce_andi_all _ _ _ _ _ h45 i
    change IntOp.andi _ _ = 1#1 at e
    obtain ⟨e0, e1⟩ := IntOp.andi_eq_one.1 e
    exact word_lt _ 32 (by decide) e0 e1
  · have e := h51 i
    change IntOp.andi _ _ = 1#1 at e
    obtain ⟨e0, e1⟩ := IntOp.andi_eq_one.1 e
    exact word_lt _ 100000 (by decide) e0 e1

/-- The reshaped slice of the edge index at e is the tail word of edge e: row 1 of the [2, 1600000] array. -/
private theorem tail_word (a4 : IVec Cert.Pre_finite_inputs.S2x1600000 32) (e : Fin 1600000) :
    shapeCast Cert.Pre_finite_inputs.S1600000
        (extractStridedSlice Cert.Pre_finite_inputs.S1x1600000 ![1, 0] a4 hP.slices_S2x1600000_S1x1600000_1_0)
        hP.shapeCasts_S1x1600000_S1600000 (ix1 e)
      = a4 (ix2 (1 : Fin 2) e) := by
  refine (shapeCast_apply _ _ (ix1 e) (ix2 (0 : Fin 1) e) ?_).trans ?_
  · rw [Shape.rowMajor_val_two, Shape.rowMajor_val_one]
    show 0 * 1600000 + e.val = e.val
    omega
  · refine extractStridedSlice_apply _ _ _ _ (ix2 (1 : Fin 2) e) fun a => ?_
    match a with
    | ⟨0, _⟩ => rfl
    | ⟨1, _⟩ => show e.val = 0 + e.val; omega

/-- The head of the index conjuncts: with the rest of the predicate, the tail words in range. -/
private theorem part1_read (a4 : IVec Cert.Pre_finite_inputs.S2x1600000 32) (a5 : IVec Cert.Pre_finite_inputs.S1600000 32)
    (a7 : IVec Cert.Pre_finite_inputs.S1000000 32) (a8 : FVec Ideal Cert.Pre_finite_inputs.S1000000 .f32)
    (a9 : FVec Ideal Cert.Pre_finite_inputs.S4x32 .f32) (v13 : IVec Cert.Pre_finite_inputs.S_ 1)
    (v16 : IVec Cert.Pre_finite_inputs.S32x128 1)
    (h : Cert.Pre_finite_inputs.fn_part1 (F := Ideal) a4 a5 a7 a8 a9 v13 v16 ix0 = 1#1) :
    (∀ e : Fin 1600000, (a4 (ix2 (1 : Fin 2) e)).toNat < 100000) ∧ (∀ i, (a5 i).toNat < 32) ∧ (∀ i, (a7 i).toNat < 100000) := by
  dsimp only [Cert.Pre_finite_inputs.fn_part1] at h
  obtain ⟨h4, h5, h7⟩ := part2_read _ _ _ _ _ h
  refine ⟨fun e => ?_, h5, h7⟩
  obtain ⟨e0, e1⟩ := h4 (ix1 e)
  rw [tail_word] at e1
  change IntOp.cmpi .sge _ 0#32 = 1#1 at e0
  rw [tail_word] at e0
  exact word_lt _ 100000 (by decide) e0 e1

/-- The predicate decoded over any ten argument arrays. -/
private theorem fn_read (a0 : FVec Ideal Cert.Pre_finite_inputs.S100000x128 .f32) (a1 : FVec Ideal Cert.Pre_finite_inputs.S50000x128 .f32)
    (a2 : FVec Ideal Cert.Pre_finite_inputs.S4x128 .f32) (a3 : FVec Ideal Cert.Pre_finite_inputs.S32x128 .f32)
    (a4 : IVec Cert.Pre_finite_inputs.S2x1600000 32) (a5 : IVec Cert.Pre_finite_inputs.S1600000 32)
    (a6 : IVec Cert.Pre_finite_inputs.S1000000 32) (a7 : IVec Cert.Pre_finite_inputs.S1000000 32)
    (a8 : FVec Ideal Cert.Pre_finite_inputs.S1000000 .f32) (a9 : FVec Ideal Cert.Pre_finite_inputs.S4x32 .f32)
    (h : Cert.Pre_finite_inputs.fn (F := Ideal) a0 a1 a2 a3 a4 a5 a6 a7 a8 a9 = fun _ => 1#1) :
    (∀ e : Fin 1600000, (a4 (ix2 (1 : Fin 2) e)).toNat < 100000) ∧ (∀ i, (a5 i).toNat < 32) ∧ (∀ i, (a7 i).toNat < 100000) := by
  have e := congrFun h ix0
  dsimp only [Cert.Pre_finite_inputs.fn] at e
  exact part1_read _ _ _ _ _ _ _ e

/-- Every tail index (row 1 of the [2, 1600000] edge index) names a row of the entity table. -/
theorem tail_lt (h : Cert.Pre_KernelIdeal m) (c : Dev nD) (e : Fin 1600000) :
    ((m ((c.tc : Thread nD τ).loc main_arg4) : S2x1600000.Idx → BitVec 32) (ix2 (1 : Fin 2) e)).toNat < 100000 :=
  (fn_read _ _ _ _ _ _ _ _ _ _ (h c)).1 e

/-- Every edge type names a row of the relation table. -/
theorem etype_lt (h : Cert.Pre_KernelIdeal m) (c : Dev nD) (e : Fin 1600000) :
    ((m ((c.tc : Thread nD τ).loc main_arg5) : S1600000.Idx → BitVec 32) (ix1 e)).toNat < 32 :=
  (fn_read _ _ _ _ _ _ _ _ _ _ (h c)).2.1 (ix1 e)

/-- Every interaction column names a row of the entity table. -/
theorem cols_lt (h : Cert.Pre_KernelIdeal m) (c : Dev nD) (e : Fin 1000000) :
    ((m ((c.tc : Thread nD τ).loc main_arg7) : S1000000.Idx → BitVec 32) (ix1 e)).toNat < 100000 :=
  (fn_read _ _ _ _ _ _ _ _ _ _ (h c)).2.2 (ix1 e)

end Cert.KernelIdeal.PreRead

end
-- ==== Proof.TakeFill.lean ====
/-
  jnp.take's out-of-range fill, as the kernel program's two takes compute it: the index words, wrapped where
  negative, laid out as a column; the mask "0 ≤ index ≤ 99999", and-reduced over the column's unit axis and broadcast
  along each row; the gathered rows kept where the mask is set and a fill value elsewhere. Where every index word names a
  row of the [100000, 128] table the mask is set everywhere, so the select keeps the gathered rows.
-/
import proofs.«421324_j60078002536942_3_alg».proof.Proof.Gen.KernelIdeal.Launch
import Idealize.ShloMosaic.Lib.ReduceAll
import Idealize.ShloMosaic.Lib.Pipeline.Value
import Idealize.ShloMosaic.Lib.ValueIdx
import Idealize.ShloMosaic.Lib.StableHlo.Predicate

set_option maxRecDepth 16384

noncomputable section

namespace Cert.KernelIdeal.TakeFill

open Cert.KernelIdeal Cert.KernelIdeal.Gen
open Idealize.ShloMosaic Idealize.ShloMosaic.ValueIdx

/-- The 1600000 tail words, wrapped where negative (index + 100000), as an [1600000, 1] column of start indices. -/
def wrapE (v : S1600000.Idx → BitVec 32) : S1600000x1.Idx → BitVec 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The in-range mask of a column of start indices, one bit per element of the [1600000, 128] result. -/
def maskE (I : S1600000x1.Idx → BitVec 32) : S1600000x128.Idx → BitVec 1 :=
  broadcastInDim S1600000x128 ![0] bcast_S1600000_S1600000x128_0
    (Host.reduce IntOp.andi
      (andi (cmpi .sge I (broadcastInDim S1600000x1 ![] bcast_S_S1600000x1 (constantI S_ 32 0#32)))
        (cmpi .sle I (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The 1000000 interaction-column words, wrapped where negative, as a [1000000, 1] column. -/
def wrapC (v : S1000000.Idx → BitVec 32) : S1000000x1.Idx → BitVec 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- The in-range mask of that column, one bit per element of the [1000000, 128] result. -/
def maskC (I : S1000000x1.Idx → BitVec 32) : S1000000x128.Idx → BitVec 1 :=
  broadcastInDim S1000000x128 ![0] bcast_S1000000_S1000000x128_0
    (Host.reduce IntOp.andi
      (andi (cmpi .sge I (broadcastInDim S1000000x1 ![] bcast_S_S1000000x1 (constantI S_ 32 0#32)))
        (cmpi .sle I (broadcastInDim S1000000x1 ![0, 1] bcast_S1x1_S1000000x1_0_1
          (broadcastInDim S1x1 ![1] bcast_S1_S1x1_1 (constantI S1 32 99999#32)))))
      (constantI S_ 1 1#1) reducesTo_S1000000x1_S1000000_d1 h_S_)

/-! ## Words and folds -/

/-- A word below a bound of at most 2³¹ is not negative: the wrap of a negative index keeps it. -/
private theorem wrap_keep (w K : BitVec 32) (N : Nat) (hN : N ≤ 2 ^ 31) (h : w.toNat < N) :
    Scalar.select (IntOp.cmpi .slt w 0#32) (IntOp.addi w K) w = w := by
  have hc : IntOp.cmpi .slt w 0#32 = 0#1 := by
    refine eq_zero_of_ne_one (fun h1 => ?_)
    have := (StableHlo.Predicate.slt_iff_toNat (a := w) (b := 0#32) (by omega) (by decide)).mp h1
    simp at this
  rw [hc, select_zero]

/-- A word that names a row of the [100000, 128] table passes both range tests. -/
private theorem inrange_bit (w : BitVec 32) (h : w.toNat < 100000) :
    IntOp.andi (IntOp.cmpi .sge w 0#32) (IntOp.cmpi .sle w 99999#32) = 1#1 := by
  have h9 : (99999#32 : BitVec 32).toNat = 99999 := rfl
  refine IntOp.andi_eq_one.2 ⟨?_, ?_⟩
  · exact (StableHlo.Predicate.sge_iff_toNat (a := w) (b := 0#32) (by omega) (by decide)).mpr (by simp)
  · exact (StableHlo.Predicate.sle_iff_toNat (a := w) (b := 99999#32) (by omega) (by decide)).mpr (by omega)

/-- A left fold by `and` from 1 over bits that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduce by `and` from 1 of an array whose every bit is 1 is 1 at every index. -/
private theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

/-- Every index of an [n, 1] column is (e, 0). -/
private theorem eq_col {n : Nat} (i : (⟨2, ![n, 1]⟩ : Shape).Idx) : i = ix2 (i 0) (0 : Fin 1) :=
  (eq_ix2 i).trans (congrArg (ix2 (i 0)) (Subsingleton.elim (α := Fin 1) _ _))

/-! ## The wrapped words and the masks -/

/-- A wrapped in-range word is the word. -/
theorem wrapE_at (v : S1600000.Idx → BitVec 32) (e : Fin 1600000) (h : (v (ix1 e)).toNat < 100000) :
    wrapE v (ix2 e (0 : Fin 1)) = v (ix1 e) := by
  unfold wrapE
  refine (broadcastInDim_apply _ bcast_S1600000_S1600000x1_0 _ (ix2 e (0 : Fin 1)) (ix1 e) (fun a => match a with
    | ⟨0, _⟩ => by show e.val = if (1600000 : Nat) = 1 then 0 else e.val; rw [if_neg (by decide)])).trans ?_
  show Scalar.select (IntOp.cmpi .slt (v (ix1 e)) 0#32) (IntOp.addi (v (ix1 e)) 100000#32) (v (ix1 e)) = v (ix1 e)
  exact wrap_keep _ _ 100000 (by decide) h

theorem wrapC_at (v : S1000000.Idx → BitVec 32) (e : Fin 1000000) (h : (v (ix1 e)).toNat < 100000) :
    wrapC v (ix2 e (0 : Fin 1)) = v (ix1 e) := by
  unfold wrapC
  refine (broadcastInDim_apply _ bcast_S1000000_S1000000x1_0 _ (ix2 e (0 : Fin 1)) (ix1 e) (fun a => match a with
    | ⟨0, _⟩ => by show e.val = if (1000000 : Nat) = 1 then 0 else e.val; rw [if_neg (by decide)])).trans ?_
  show Scalar.select (IntOp.cmpi .slt (v (ix1 e)) 0#32) (IntOp.addi (v (ix1 e)) 100000#32) (v (ix1 e)) = v (ix1 e)
  exact wrap_keep _ _ 100000 (by decide) h

/-- Where every start index names a row of the table, the take keeps every gathered element. -/
theorem select_maskE (I : S1600000x1.Idx → BitVec 32) (hI : ∀ e : Fin 1600000, (I (ix2 e (0 : Fin 1))).toNat < 100000)
    (G N : S1600000x128.Idx → EReal) : select (maskE I) G N = G := by
  funext j
  -- the mask bit at j is the and-reduce at row (j 0), and every bit reduced is 1
  have hm : maskE I j = 1#1 := by
    unfold maskE broadcastInDim
    refine reduce_andi_one _ _ _ _ rfl (fun i => ?_) _
    rw [eq_col i]
    exact inrange_bit _ (hI (i 0))
  show Scalar.select (maskE I j) (G j) (N j) = G j
  rw [hm, select_one]

theorem select_maskC (I : S1000000x1.Idx → BitVec 32) (hI : ∀ e : Fin 1000000, (I (ix2 e (0 : Fin 1))).toNat < 100000)
    (G N : S1000000x128.Idx → EReal) : select (maskC I) G N = G := by
  funext j
  have hm : maskC I j = 1#1 := by
    unfold maskC broadcastInDim
    refine reduce_andi_one _ _ _ _ rfl (fun i => ?_) _
    rw [eq_col i]
    exact inrange_bit _ (hI (i 0))
  show Scalar.select (maskC I j) (G j) (N j) = G j
  rw [hm, select_one]

/-- jnp.clip of an edge-type word to [0, 31] leaves a word already there alone. -/
theorem clip_at (w : BitVec 32) (h : w.toNat < 32) : IntOp.minsi 31#32 (IntOp.maxsi 0#32 w) = w := by
  have hti : w.toInt = w.toNat := StableHlo.Predicate.toInt_eq_toNat_of_lt (by omega)
  have h0 : (0#32 : BitVec 32).toInt = 0 := by decide
  have h31 : (31#32 : BitVec 32).toInt = 31 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h31, decide_eq_true_eq]; omega

end Cert.KernelIdeal.TakeFill

end
-- ==== Proof.Stages.lean ====
/-
  The kernel program's host values at the three regions' entries, and its two results, in terms of the argument
  arrays: each is read through the host operations between the regions, one stretch at a time from an arbitrary
  entry valuation, and where the reference computes the same array it is stated as the reference's own stage.
-/
import proofs.«421324_j60078002536942_3_alg».proof.Proof.Gen.KernelIdeal.Frame
import proofs.«421324_j60078002536942_3_alg».proof.Proof.Gen.ReferenceIdeal.Read
import proofs.«421324_j60078002536942_3_alg».proof.Proof.TakeFill
import Idealize.ShloMosaic.Lib.StableHlo.Run
import Idealize.ShloMosaic.Lib.Pipeline.Value
import Idealize.ShloMosaic.Lib.ValueIdx

set_option maxRecDepth 16384

noncomputable section

namespace Cert.KernelIdeal.Stages

open Cert.KernelIdeal Cert.KernelIdeal.Gen Cert.KernelIdeal.TakeFill
open Idealize.ShloMosaic Idealize.ShloMosaic.TcCoe Idealize.ShloMosaic.ValueIdx Idealize.SL.Sem Idealize.ShloMosaic.StableHlo

variable {F : FTy → Type} [FloatOps F]

/-! ## A typed reference's two transports cancel; at a literal reference each is the identity -/

theorem ofBuf_toBuf {T : BufTy} {Val : EltTy → Type} (x : TRef sig T) (v : T.Contents Val) : x.ofBuf (x.toBuf v) = v := by
  obtain ⟨r, h, h2, h3⟩ := x; subst h; rfl

theorem toBuf_v4 (X : (⟨S1600000x128, .f32⟩ : BufTy).Contents (Elt F)) : (TRef.of main_v4 : TRef sig ⟨S1600000x128, .f32⟩).toBuf X = X := rfl
theorem ofBuf_v3 (X : (main_v3 : Ref sig .tc).ty.Contents (Elt F)) : (TRef.of main_v3 : TRef sig ⟨S1600000, .i32⟩).ofBuf X = X := rfl
theorem ofBuf_arg0 (X : (main_arg0 : Ref sig .tc).ty.Contents (Elt F)) : (TRef.of main_arg0 : TRef sig ⟨S100000x128, .f32⟩).ofBuf X = X := rfl
theorem toBuf_v5 (X : (⟨S1600000, .i32⟩ : BufTy).Contents (Elt F)) : (TRef.of main_v5 : TRef sig ⟨S1600000, .i32⟩).toBuf X = X := rfl
theorem ofBuf_c (X : (main_c : Ref sig .tc).ty.Contents (Elt F)) : (TRef.of main_c : TRef sig ⟨S_, .i32⟩).ofBuf X = X := rfl
theorem ofBuf_c_0 (X : (main_c_0 : Ref sig .tc).ty.Contents (Elt F)) : (TRef.of main_c_0 : TRef sig ⟨S_, .i32⟩).ofBuf X = X := rfl
theorem ofBuf_arg5 (X : (main_arg5 : Ref sig .tc).ty.Contents (Elt F)) : (TRef.of main_arg5 : TRef sig ⟨S1600000, .i32⟩).ofBuf X = X := rfl
theorem toBuf_v17 (X : (⟨S1000000x128, .f32⟩ : BufTy).Contents (Elt F)) : (TRef.of main_v17 : TRef sig ⟨S1000000x128, .f32⟩).toBuf X = X := rfl
theorem ofBuf_arg7 (X : (main_arg7 : Ref sig .tc).ty.Contents (Elt F)) : (TRef.of main_arg7 : TRef sig ⟨S1000000, .i32⟩).ofBuf X = X := rfl

/-! ## Before region 0 -/

/-- The heads and the tails: rows 0 and 1 of the edge index. -/
theorem h0_v1 (U : Valuation τ sig (Elt F)) :
    StableHlo.after hostOps0 U (Proc.devRef .tc main_v1) = Cert.ReferenceIdeal.Read.val_main_v1 (F := F) (U (Proc.devRef .tc main_arg4)) := by
  simp only [hostOps0]; after_results_simp; rfl
theorem h0_v3 (U : Valuation τ sig (Elt F)) :
    StableHlo.after hostOps0 U (Proc.devRef .tc main_v3) = Cert.ReferenceIdeal.Read.val_main_v3 (F := F) (U (Proc.devRef .tc main_arg4)) := by
  simp only [hostOps0]; after_results_simp; rfl
theorem h0_arg0 (U : Valuation τ sig (Elt F)) :
    StableHlo.after hostOps0 U (Proc.devRef .tc main_arg0) = U (Proc.devRef .tc main_arg0) := by
  simp only [hostOps0]; after_results_simp

/-- The take of the tail rows, with its out-of-range fill. -/
theorem h01_v4 (U : Valuation τ sig (Elt F)) :
    StableHlo.after hostOps0_1 U (Proc.devRef .tc main_v4)
      = select (maskE (wrapE (U (Proc.devRef .tc main_v3))))
          (Host.gather gather_S100000x128_S1600000x1_S1600000x128_1_0_n_n_0_1_1128
            (U (Proc.devRef .tc main_arg0)) (wrapE (U (Proc.devRef .tc main_v3))))
          (broadcastInDim S1600000x128 ![] bcast_S_S1600000x128 (constant (F := F) S_ .f32 0x7FC00000#32)) := by
  simp only [hostOps0_1]
  after_results_simp
  simp only [ofBuf_toBuf, toBuf_v4, ofBuf_v3, ofBuf_arg0]
  unfold maskE wrapE
  rfl

/-- The later stretches before region 0 leave the take's result, the heads and the relation table alone. -/
theorem h024_v4 (U : Valuation τ sig (Elt F)) :
    StableHlo.after hostOps0_4 (StableHlo.after hostOps0_3 (StableHlo.after hostOps0_2 U)) (Proc.devRef .tc main_v4) = U (Proc.devRef .tc main_v4) := by
  simp only [hostOps0_4, hostOps0_3, hostOps0_2]; after_results_simp
theorem h014_v1 (U : Valuation τ sig (Elt F)) :
    StableHlo.after hostOps0_4 (StableHlo.after hostOps0_3 (StableHlo.after hostOps0_2 (StableHlo.after hostOps0_1 U))) (Proc.devRef .tc main_v1) = U (Proc.devRef .tc main_v1) := by
  simp only [hostOps0_4, hostOps0_3, hostOps0_2, hostOps0_1]; after_results_simp
theorem h004_arg3 (U : Valuation τ sig (Elt F)) :
    StableHlo.after hostOps0_4 (StableHlo.after hostOps0_3 (StableHlo.after hostOps0_2 (StableHlo.after hostOps0_1 (StableHlo.after hostOps0 U)))) (Proc.devRef .tc main_arg3) = U (Proc.devRef .tc main_arg3) := by
  simp only [hostOps0_4, hostOps0_3, hostOps0_2, hostOps0_1, hostOps0]; after_results_simp

/-- The edge types clipped to [0, 31], as a column. -/
theorem h004_v6 (U : Valuation τ sig (Elt F)) :
    StableHlo.after hostOps0_4 (StableHlo.after hostOps0_3 (StableHlo.after hostOps0_2 (StableHlo.after hostOps0_1 (StableHlo.after hostOps0 U)))) (Proc.devRef .tc main_v6)
      = broadcastInDim S1600000x1 ![0] bcast_S1600000_S1600000x1_0
          (minsi (broadcastInDim S1600000 ![] bcast_S_S1600000 (constantI S_ 32 31#32))
            (maxsi (broadcastInDim S1600000 ![] bcast_S_S1600000 (constantI S_ 32 0#32)) (U (Proc.devRef .tc main_arg5)))) := by
  simp only [hostOps0_4, hostOps0_3, hostOps0_2, hostOps0_1, hostOps0]
  after_results_simp
  simp only [ofBuf_toBuf, toBuf_v5, ofBuf_c, ofBuf_c_0, ofBuf_arg5]
  rfl

/-! ## Between regions 0 and 1 -/

/-- The sums: the region's rows scattered onto their heads. -/
theorem h1_v10 (U : Valuation τ sig (Elt F)) :
    StableHlo.after hostOps1 U (Proc.devRef .tc main_v10)
      = Host.scatterAdd scatter_S100000x128_S1600000x1_S1600000x128_1_0_0_1
          (broadcastInDim S100000x128 ![] bcast_S_S100000x128 (constant (F := F) S_ .f32 0x00000000#32))
          (broadcastInDim S1600000x1 ![0] bcast_S1600000_S1600000x1_0 (U (Proc.devRef .tc main_v1)))
          (U (Proc.devRef .tc main_v7)) := by
  simp only [hostOps1]; after_results_simp

/-- The counts, as a column. -/
theorem h1_v15 (U : Valuation τ sig (Elt F)) :
    StableHlo.after hostOps1 U (Proc.devRef .tc main_v15)
      = broadcastInDim S100000x1 ![0] bcast_S100000_S100000x1_0
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 (U (Proc.devRef .tc main_v1)))
            (broadcastInDim S1600000 ![] bcast_S_S1600000 (constant (F := F) S_ .f32 0x3F800000#32))) := by
  simp only [hostOps1]; after_results_simp

/-! ## Between regions 1 and 2 -/

/-- The take of the interaction columns' rows, with its out-of-range fill. -/
theorem h2_v17 (U : Valuation τ sig (Elt F)) :
    StableHlo.after hostOps2 U (Proc.devRef .tc main_v17)
      = select (maskC (wrapC (U (Proc.devRef .tc main_arg7))))
          (Host.gather gather_S100000x128_S1000000x1_S1000000x128_1_0_n_n_0_1_1128
            (U (Proc.devRef .tc main_arg0)) (wrapC (U (Proc.devRef .tc main_arg7))))
          (broadcastInDim S1000000x128 ![] bcast_S_S1000000x128 (constant (F := F) S_ .f32 0x7FC00000#32)) := by
  simp only [hostOps2]
  after_results_simp
  simp only [ofBuf_toBuf, toBuf_v17, ofBuf_arg7, ofBuf_arg0]
  unfold maskC wrapC
  rfl

/-- The aggregated interactions: the taken rows scaled by the interaction values, scattered onto their users. -/
theorem h21_v23 (U : Valuation τ sig (Elt F)) :
    StableHlo.after hostOps2_1 U (Proc.devRef .tc main_v23)
      = Host.scatterAdd scatter_S50000x128_S1000000x1_S1000000x128_1_0_0_1
          (broadcastInDim S50000x128 ![] bcast_S_S50000x128 (constant (F := F) S_ .f32 0x00000000#32))
          (broadcastInDim S1000000x1 ![0] bcast_S1000000_S1000000x1_0 (U (Proc.devRef .tc main_arg6)))
          (mulf (U (Proc.devRef .tc main_v17))
            (broadcastInDim S1000000x128 ![0, 1] bcast_S1000000x1_S1000000x128_0_1
              (broadcastInDim S1000000x1 ![0] bcast_S1000000_S1000000x1_0 (U (Proc.devRef .tc main_arg8))))) := by
  simp only [hostOps2_1]; after_results_simp

/-- The relation combination and the transposed latent table: the reference's own stages of the same arguments. -/
theorem h21_v35 (U : Valuation τ sig (Elt F)) :
    StableHlo.after hostOps2_1 U (Proc.devRef .tc main_v35)
      = Cert.ReferenceIdeal.Read.val_main_v68 (F := F) (U (Proc.devRef .tc main_arg3)) (U (Proc.devRef .tc main_arg9)) := by
  simp only [hostOps2_1]; after_results_simp; rfl
theorem h21_v36 (U : Valuation τ sig (Elt F)) :
    StableHlo.after hostOps2_1 U (Proc.devRef .tc main_v36)
      = Cert.ReferenceIdeal.Read.val_main_v31 (F := F) (U (Proc.devRef .tc main_arg2)) := by
  simp only [hostOps2_1]; after_results_simp; rfl

/-- What the two stretches leave alone. -/
theorem h22_keep (U : Valuation τ sig (Elt F)) (r : Ref sig .tc)
    (hr : r = main_arg0 ∨ r = main_arg1 ∨ r = main_arg2 ∨ r = main_arg3 ∨ r = main_arg6 ∨ r = main_arg7 ∨ r = main_arg8 ∨ r = main_arg9 ∨ r = main_v16) :
    StableHlo.after hostOps2_1 (StableHlo.after hostOps2 U) (Proc.devRef .tc r) = U (Proc.devRef .tc r) := by
  rcases hr with rfl | rfl | rfl | rfl | rfl | rfl | rfl | rfl | rfl <;>
    (simp only [hostOps2_1, hostOps2]; after_results_simp)
theorem h2_keep (U : Valuation τ sig (Elt F)) (r : Ref sig .tc)
    (hr : r = main_arg0 ∨ r = main_arg2 ∨ r = main_arg3 ∨ r = main_arg6 ∨ r = main_arg7 ∨ r = main_arg8 ∨ r = main_arg9) :
    StableHlo.after hostOps2 U (Proc.devRef .tc r) = U (Proc.devRef .tc r) := by
  rcases hr with rfl | rfl | rfl | rfl | rfl | rfl | rfl <;> (simp only [hostOps2]; after_results_simp)
theorem h1_keep (U : Valuation τ sig (Elt F)) (r : Ref sig .tc)
    (hr : r = main_arg0 ∨ r = main_arg1 ∨ r = main_arg2 ∨ r = main_arg3 ∨ r = main_arg6 ∨ r = main_arg7 ∨ r = main_arg8 ∨ r = main_arg9) :
    StableHlo.after hostOps1 U (Proc.devRef .tc r) = U (Proc.devRef .tc r) := by
  rcases hr with rfl | rfl | rfl | rfl | rfl | rfl | rfl | rfl <;> (simp only [hostOps1]; after_results_simp)

end Cert.KernelIdeal.Stages

end
-- ==== Proof.Spec.lean ====
/-
  The three per-row functions the kernel's three regions compute, each over an array of any number n of rows
  (a region's whole array, or one grid point's block of it: the value at a row depends on that row alone, so a block
  of the function of the whole arrays is the function of the blocks).

  * relMul: row e of the gathered tail embeddings times the relation row the edge's type word selects, the
    selection written as the kernel computes it: the sum over the 32 relation rows of (1 if the type word is k else 0)
    times row k.
  * divCnt: a row of sums divided by max(count, 1), the count kept as an [n, 1] column.
  * userFinal: softmax over the 4 latent factors of the user row's scores against the [128, 4] latent table, the
    resulting weights combined with the [4, 128] disentangled relation table, and the result
    combined · agg + agg with the row of aggregated interactions.
  Float literals stay as their words (Ideal.ofBits): both programs carry the same words, so none is ever evaluated.
-/
import Idealize.ShloMosaic.PureOps.Ideal
import Idealize.ShloMosaic.Lib.ValueIdx

noncomputable section

namespace Cert.Spec

open Idealize.ShloMosaic Idealize.ShloMosaic.ValueIdx

/-- The f32 words of -∞ and of 1.0, as the extended reals they denote. -/
abbrev negInf : EReal := Ideal.ofBits .f32 0xFF800000#32
abbrev one : EReal := Ideal.ofBits .f32 0x3F800000#32

/-- Row (j 0) of T times the relation row its type word E (j 0, 0) selects by a one-hot sum over the 32 rows of R. -/
def relMul (n : Nat) (T : (⟨2, ![n, 128]⟩ : Shape).Idx → EReal) (E : (⟨2, ![n, 1]⟩ : Shape).Idx → BitVec 32)
    (R : (⟨2, ![32, 128]⟩ : Shape).Idx → EReal) : (⟨2, ![n, 128]⟩ : Shape).Idx → EReal :=
  fun j => T j * ∑ k : Fin 32,
    (if E (ix2 (⟨(j 0).val, idx2_lt0 j⟩ : Fin n) (0 : Fin 1)) = BitVec.ofNat 32 k.val then (1 : EReal) else 0)
      * R (ix2 k (⟨(j 1).val, idx2_lt1 j⟩ : Fin 128))

/-- A row of sums over max(count, 1), the counts an [n, 1] column. -/
def divCnt (n : Nat) (S : (⟨2, ![n, 128]⟩ : Shape).Idx → EReal) (C : (⟨2, ![n, 1]⟩ : Shape).Idx → EReal) :
    (⟨2, ![n, 128]⟩ : Shape).Idx → EReal :=
  fun j => Ideal.div (S j) (max (C (ix2 (⟨(j 0).val, idx2_lt0 j⟩ : Fin n) (0 : Fin 1))) one)

/-- Row u's score against latent factor f: the dot product of the user row with column f of the [128, 4] table. -/
def score (n : Nat) (U : (⟨2, ![n, 128]⟩ : Shape).Idx → EReal) (LT : (⟨2, ![128, 4]⟩ : Shape).Idx → EReal) (u : Fin n) (f : Fin 4) : EReal :=
  ∑ k : Fin 128, U (ix2 u k) * LT (ix2 k f)

/-- The row's largest score, taken from -∞ twice as both programs do. -/
def rowMax (n : Nat) (U : (⟨2, ![n, 128]⟩ : Shape).Idx → EReal) (LT : (⟨2, ![128, 4]⟩ : Shape).Idx → EReal) (u : Fin n) : EReal :=
  max negInf ((Finset.univ : Finset (Fin 4)).fold max negInf (fun f => score n U LT u f))

/-- exp(score − row maximum). -/
def expo (n : Nat) (U : (⟨2, ![n, 128]⟩ : Shape).Idx → EReal) (LT : (⟨2, ![128, 4]⟩ : Shape).Idx → EReal) (u : Fin n) (f : Fin 4) : EReal :=
  Ideal.exp (score n U LT u f - rowMax n U LT u)

/-- The softmax weight of factor f in row u. -/
def soft (n : Nat) (U : (⟨2, ![n, 128]⟩ : Shape).Idx → EReal) (LT : (⟨2, ![128, 4]⟩ : Shape).Idx → EReal) (u : Fin n) (f : Fin 4) : EReal :=
  Ideal.div (expo n U LT u f) (∑ f' : Fin 4, expo n U LT u f')

/-- The softmax weights combined with the [4, 128] table DW, at (u, d). -/
def combined (n : Nat) (U : (⟨2, ![n, 128]⟩ : Shape).Idx → EReal) (LT : (⟨2, ![128, 4]⟩ : Shape).Idx → EReal)
    (DW : (⟨2, ![4, 128]⟩ : Shape).Idx → EReal) (u : Fin n) (d : Fin 128) : EReal :=
  ∑ f : Fin 4, soft n U LT u f * DW (ix2 f d)

/-- combined · agg + agg. -/
def userFinal (n : Nat) (U : (⟨2, ![n, 128]⟩ : Shape).Idx → EReal) (LT : (⟨2, ![128, 4]⟩ : Shape).Idx → EReal)
    (DW : (⟨2, ![4, 128]⟩ : Shape).Idx → EReal) (A : (⟨2, ![n, 128]⟩ : Shape).Idx → EReal) : (⟨2, ![n, 128]⟩ : Shape).Idx → EReal :=
  fun j => combined n U LT DW ⟨(j 0).val, idx2_lt0 j⟩ ⟨(j 1).val, idx2_lt1 j⟩ * A j + A j

end Cert.Spec

end
-- ==== Proof.Pay01.lean ====
/-
  What the bodies of the first two regions store, read as the per-row functions of Spec.lean at the block's own
  shape: the edge block's rows times the one-hot-selected relation rows, and the sums block over max(count, 1).
-/
import proofs.«421324_j60078002536942_3_alg».proof.Proof.Gen.KernelIdeal.Skeleton
import proofs.«421324_j60078002536942_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Pay

open Cert.KernelIdeal Cert.KernelIdeal.Gen
open Idealize.ShloMosaic Idealize.ShloMosaic.ValueIdx

/-- The left operand of the [6400,32] × [32,128] product at output index i and contraction index c: its row is i's row … -/
private theorem lhs_ax0 (i : S6400x128.Idx) (c : dot_S6400x32_S32x128_S6400x128_1_0_0_1_n_n.contr.Idx) :
    (dot_S6400x32_S32x128_S6400x128_1_0_0_1_n_n.lhsIdx i c 0).val = (i 0).val := by
  unfold DotDims.lhsIdx
  rw [dif_neg (show ¬(0 : Fin S6400x32.rank) ∈ dot_S6400x32_S32x128_S6400x128_1_0_0_1_n_n.lhsBatch by decide), dif_pos (show (0 : Fin S6400x32.rank) ∈ dot_S6400x32_S32x128_S6400x128_1_0_0_1_n_n.lhsNonContracting by decide)]
  rfl
/-- … and its column the contraction coordinate. -/
private theorem lhs_ax1 (i : S6400x128.Idx) (c : dot_S6400x32_S32x128_S6400x128_1_0_0_1_n_n.contr.Idx) :
    (dot_S6400x32_S32x128_S6400x128_1_0_0_1_n_n.lhsIdx i c 1).val = (c ⟨0, by decide⟩).val :=
  dot_S6400x32_S32x128_S6400x128_1_0_0_1_n_n.lhsIdx_val_of_single rfl i c
/-- The right operand's row is the contraction coordinate … -/
private theorem rhs_ax0 (i : S6400x128.Idx) (c : dot_S6400x32_S32x128_S6400x128_1_0_0_1_n_n.contr.Idx) :
    (dot_S6400x32_S32x128_S6400x128_1_0_0_1_n_n.rhsIdx i c 0).val = (c ⟨0, by decide⟩).val :=
  dot_S6400x32_S32x128_S6400x128_1_0_0_1_n_n.rhsIdx_val_of_single rfl i c
/-- … and its column i's column. -/
private theorem rhs_ax1 (i : S6400x128.Idx) (c : dot_S6400x32_S32x128_S6400x128_1_0_0_1_n_n.contr.Idx) :
    (dot_S6400x32_S32x128_S6400x128_1_0_0_1_n_n.rhsIdx i c 1).val = (i 1).val := by
  unfold DotDims.rhsIdx
  rw [dif_neg (show ¬(1 : Fin S32x128.rank) ∈ dot_S6400x32_S32x128_S6400x128_1_0_0_1_n_n.rhsBatch by decide), dif_pos (show (1 : Fin S32x128.rank) ∈ dot_S6400x32_S32x128_S6400x128_1_0_0_1_n_n.rhsNonContracting by decide)]
  rfl

/-- The one-hot factor on words: the widened equality bit, read as a signed integer, is 1 where the words agree and 0 elsewhere. -/
private theorem onehot_word (a b : BitVec 32) :
    (FloatOps.sitofp (F := Ideal) .f32 ((IntOp.cmpi .eq a b).setWidth 32) : EReal) = if a = b then (1 : EReal) else 0 := by
  show (((((IntOp.cmpi .eq a b).setWidth 32).toInt : ℤ) : ℝ) : EReal) = _
  by_cases h : a = b
  · have hb : IntOp.cmpi .eq a b = 1#1 := by simp [IntOp.cmpi, h]
    rw [if_pos h, hb, show ((1#1 : BitVec 1).setWidth 32).toInt = 1 by decide, Int.cast_one, EReal.coe_one]
  · have hb : IntOp.cmpi .eq a b = 0#1 := by
      show BitVec.ofBool (a == b) = 0#1
      rw [beq_eq_false_iff_ne.mpr h]; rfl
    rw [if_neg h, hb, show ((0#1 : BitVec 1).setWidth 32).toInt = 0 by decide, Int.cast_zero, EReal.coe_zero]

/-- Region 0's stored block: row r of the tail block times the relation row the row's type word selects. -/
theorem pay0_eq (e : Vec Ideal S6400x1 .i32) (r : Vec Ideal S32x128 .f32) (x : Vec Ideal S6400x128 .f32) :
    (k0_pay1 (F := Ideal) e r x : S6400x128.Idx → EReal) = Cert.Spec.relMul 6400 x e r := by
  funext j
  obtain ⟨p, q, rfl⟩ : ∃ (p : Fin 6400) (q : Fin 128), j = ix2 p q := ⟨j 0, j 1, eq_ix2 j⟩
  unfold k0_pay1 Cert.Spec.relMul
  simp only [shapeCast_self]
  rw [mulf_apply]
  refine congrArg (x (ix2 p q) * ·) ?_
  refine (Ideal.matmul_constant_zero_apply dot_S6400x32_S32x128_S6400x128_1_0_0_1_n_n none _ _ (ix2 p q)).trans ?_
  rw [← Equiv.sum_comp (ValueIdx.contrEquiv1 dot_S6400x32_S32x128_S6400x128_1_0_0_1_n_n 32 rfl rfl).symm]
  refine Finset.sum_congr rfl fun k _ => ?_
  have hk := ValueIdx.contrEquiv1_symm_val dot_S6400x32_S32x128_S6400x128_1_0_0_1_n_n 32 rfl rfl k
  have el : dot_S6400x32_S32x128_S6400x128_1_0_0_1_n_n.lhsIdx (ix2 p q) ((ValueIdx.contrEquiv1 dot_S6400x32_S32x128_S6400x128_1_0_0_1_n_n 32 rfl rfl).symm k) = ix2 p k := funext fun a => Fin.ext (by
    match a with
    | ⟨0, _⟩ => exact lhs_ax0 _ _
    | ⟨1, _⟩ => exact (lhs_ax1 _ _).trans hk)
  have er : dot_S6400x32_S32x128_S6400x128_1_0_0_1_n_n.rhsIdx (ix2 p q) ((ValueIdx.contrEquiv1 dot_S6400x32_S32x128_S6400x128_1_0_0_1_n_n 32 rfl rfl).symm k) = ix2 k q := funext fun a => Fin.ext (by
    match a with
    | ⟨0, _⟩ => exact (rhs_ax0 _ _).trans hk
    | ⟨1, _⟩ => exact rhs_ax1 _ _)
  rw [el, er]
  have hb : broadcastTo S6400x32 e broadcasts_S6400x1_S6400x32 (ix2 p k) = e (ix2 p (0 : Fin 1)) :=
    broadcastTo_apply e broadcasts_S6400x1_S6400x32 (ix2 p k) (ix2 p (0 : Fin 1))
      (fun a => match a with | ⟨0, _⟩ => rfl | ⟨1, _⟩ => rfl)
  have hi : iota .tc S6400x32 32 [1] iota_S6400x32_d1_w32 (ix2 p k) = BitVec.ofNat 32 k.val :=
    iota_single_apply .tc S6400x32 32 1 iota_S6400x32_d1_w32 (ix2 p k)
  refine congrArg₂ (· * ·) ?_ rfl
  show FloatOps.sitofp (F := Ideal) .f32 ((IntOp.cmpi .eq (broadcastTo S6400x32 e broadcasts_S6400x1_S6400x32 (ix2 p k))
    (iota .tc S6400x32 32 [1] iota_S6400x32_d1_w32 (ix2 p k))).setWidth 32) = _
  rw [hb, hi]
  exact onehot_word _ _

/-- Region 1's stored block: the sums block over max(count, 1). -/
theorem pay1_eq (cnt : Vec Ideal S5000x1 .f32) (s : Vec Ideal S5000x128 .f32) :
    (k1_pay1 (F := Ideal) cnt s : S5000x128.Idx → EReal) = Cert.Spec.divCnt 5000 s cnt := by
  funext j
  obtain ⟨p, q, rfl⟩ : ∃ (p : Fin 5000) (q : Fin 128), j = ix2 p q := ⟨j 0, j 1, eq_ix2 j⟩
  unfold k1_pay1 Cert.Spec.divCnt
  simp only [shapeCast_self]
  rw [divf_apply]
  refine congrArg (Ideal.div (s (ix2 p q))) ?_
  refine (broadcastTo_apply _ broadcasts_S5000x1_S5000x128 (ix2 p q) (ix2 p (0 : Fin 1))
    (fun a => match a with | ⟨0, _⟩ => rfl | ⟨1, _⟩ => rfl)).trans ?_
  rfl

end Cert.KernelIdeal.Pay

end
-- ==== Proof.Blocks0.lean ====
/-
  Region 0's result array after its 250 grid points: the per-row function relMul of the three arrays the region
  reads, as it finds them. Point t writes back rows 6400 t … 6400 t + 6399, and each input block at point t is the same
  rows of its array (the relation table whole), so what a point stores is that block of relMul of the whole arrays; the
  250 blocks tile the array.
-/
import proofs.«421324_j60078002536942_3_alg».proof.Proof.Gen.KernelIdeal.Frame
import proofs.«421324_j60078002536942_3_alg».proof.Proof.Spec
import proofs.«421324_j60078002536942_3_alg».proof.Proof.Pay01
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- relMul at a row depends on that row alone: a block's value at y is the whole arrays' at i once the three reads agree. -/
theorem relMul_block (T : S1600000x128.Idx → EReal) (E : S1600000x1.Idx → BitVec 32) (R : S32x128.Idx → EReal)
    (bT : S6400x128.Idx → EReal) (bE : S6400x1.Idx → BitVec 32) (bR : S32x128.Idx → EReal)
    (y : S6400x128.Idx) (i : S1600000x128.Idx)
    (hT : bT y = T i)
    (hE : bE (ix2 (⟨(y 0).val, idx2_lt0 y⟩ : Fin 6400) (0 : Fin 1)) = E (ix2 (⟨(i 0).val, idx2_lt0 i⟩ : Fin 1600000) (0 : Fin 1)))
    (hR : ∀ k : Fin 32, bR (ix2 k (⟨(y 1).val, idx2_lt1 y⟩ : Fin 128)) = R (ix2 k (⟨(i 1).val, idx2_lt1 i⟩ : Fin 128))) :
    Cert.Spec.relMul 6400 bT bE bR y = Cert.Spec.relMul 1600000 T E R i := by
  unfold Cert.Spec.relMul
  rw [hT, hE]
  simp only [hR]

/-- The printed index maps over the grid: every row-tiled window is at block (t, 0), the relation table at (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of relMul of the arrays as the region finds them. -/
theorem flushed0_eq (c : Dev nD) (t : Fin cfg0.N) :
    (dat0 V c).flushed 3 t = ((cfg0.win 3).blk t).view.read (Elt Ideal)
      (Cert.Spec.relMul 1600000 (V c main_v4) (V c main_v6) (V c main_arg3)) := by
  show (cfg0.win 3).cut (grid0.coords t) ((dat0 V c).after 3 t) = _
  rw [after0_3]
  unfold out0_3
  rw [View.canon_unit_zero hz]
  simp only [View.ld_unit_zero (S := S6400x128) hz, View.ld_unit_zero (S := S6400x1) hz, View.ld_unit_zero (S := S32x128) hz]
  rw [Cert.KernelIdeal.Pay.pay0_eq]
  obtain ⟨e0, e1, e2, e3, e4, e5, e6, e7⟩ := idx_facts0 t
  funext y
  show Cert.Spec.relMul 6400 (iblk0 V c 0 t) (iblk0 V c 1 t) (iblk0 V c 2 t) y
    = Cert.Spec.relMul 1600000 (V c main_v4) (V c main_v6) (V c main_arg3) (((cfg0.win 3).blk t).view.emb y)
  have hy0 : (y 0).val < 6400 := (y 0).isLt
  have hy1 : (y 1).val < 128 := (y 1).isLt
  refine relMul_block (V c main_v4) (V c main_v6) (V c main_arg3) _ _ _ y _ ?_ ?_ ?_
  · show V c main_v4 (((cfg0.win 0).blk t).view.emb y) = V c main_v4 (((cfg0.win 3).blk t).view.emb y)
    refine congrArg _ (funext fun a => Fin.ext ?_)
    match a with
    | ⟨0, _⟩ => show win0_0.index t (0 : Fin 2) * 6400 + 1 * (y 0).val = win0_3.index t (0 : Fin 2) * 6400 + 1 * (y 0).val; omega
    | ⟨1, _⟩ => show win0_0.index t (1 : Fin 2) * 128 + 1 * (y 1).val = win0_3.index t (1 : Fin 2) * 128 + 1 * (y 1).val; omega
  · show V c main_v6 (((cfg0.win 1).blk t).view.emb (ix2 (⟨(y 0).val, idx2_lt0 y⟩ : Fin 6400) (0 : Fin 1))) = V c main_v6 _
    refine congrArg _ (funext fun a => Fin.ext ?_)
    match a with
    | ⟨0, _⟩ => show win0_1.index t (0 : Fin 2) * 6400 + 1 * (y 0).val = win0_3.index t (0 : Fin 2) * 6400 + 1 * (y 0).val; omega
    | ⟨1, _⟩ => show win0_1.index t (1 : Fin 2) * 1 + 1 * 0 = 0; omega
  · intro k
    show V c main_arg3 (((cfg0.win 2).blk t).view.emb (ix2 k (⟨(y 1).val, idx2_lt1 y⟩ : Fin 128))) = V c main_arg3 _
    refine congrArg _ (funext fun a => Fin.ext ?_)
    match a with
    | ⟨0, _⟩ => show win0_2.index t (0 : Fin 2) * 32 + 1 * k.val = k.val; omega
    | ⟨1, _⟩ => show win0_2.index t (1 : Fin 2) * 128 + 1 * (y 1).val = win0_3.index t (1 : Fin 2) * 128 + 1 * (y 1).val; omega

/-- An index of the array is in point t's block iff each coordinate is in the block's range on its axis. -/
theorem mem_blk0 (t : Fin cfg0.N) (i : S1600000x128.Idx) :
    i ∈ ((cfg0.win 3).blk t).view.set ↔ ∀ a : Fin 2, win0_3.index t a * S6400x128.size a ≤ (i a).val
      ∧ (i a).val < win0_3.index t a * S6400x128.size a + S6400x128.size a := by
  show i ∈ ((View.whole main_v7).slice (win0_3.rect t)).set ↔ _
  rw [View.set_slice_whole, Rect.mem_set_unit]
  exact Iff.rfl

/-- Row r of the array is in the block of point r / 6400. -/
theorem cover0 (i : S1600000x128.Idx) : ∃ t : Fin cfg0.N, (cfg0.win 3).flush t = true ∧ i ∈ ((cfg0.win 3).blk t).view.set := by
  have hN : cfg0.N = 250 := N_0
  have hi0 : (i 0).val < 1600000 := (i 0).isLt
  have hi1 : (i 1).val < 128 := (i 1).isLt
  let t : Fin cfg0.N := ⟨(i 0).val / 6400, by rw [hN]; omega⟩
  obtain ⟨-, -, -, -, -, -, e6, e7⟩ := idx_facts0 t
  have ht : t.val = (i 0).val / 6400 := rfl
  refine ⟨t, flush0_3 t, ?_⟩
  rw [mem_blk0]
  intro a
  match a with
  | ⟨0, _⟩ => show win0_3.index t (0 : Fin 2) * 6400 ≤ (i 0).val ∧ (i 0).val < win0_3.index t (0 : Fin 2) * 6400 + 6400; omega
  | ⟨1, _⟩ => show win0_3.index t (1 : Fin 2) * 128 ≤ (i 1).val ∧ (i 1).val < win0_3.index t (1 : Fin 2) * 128 + 128; omega

/-- Region 0's result array after the run. -/
theorem out0_eq (c : Dev nD) : (dat0 V c).arrAt 3 cfg0.N
    = Cert.Spec.relMul 1600000 (V c main_v4) (V c main_v6) (V c main_arg3) :=
  (dat0 V c).arrAt_eq_of_cover 3 _ (fun t _ => flushed0_eq V c t) cover0

end Cert.KernelIdeal.Blocks

end
-- ==== Proof.Blocks1.lean ====
/-
  Region 1's result array after its 20 grid points: the per-row function divCnt of the two arrays the region reads, as
  it finds them. Point t writes back rows 5000 t … 5000 t + 4999, and each input block at point t is the same rows of
  its array, so what a point stores is that block of divCnt of the whole arrays; the 20 blocks tile the array.
-/
import proofs.«421324_j60078002536942_3_alg».proof.Proof.Gen.KernelIdeal.Frame
import proofs.«421324_j60078002536942_3_alg».proof.Proof.Spec
import proofs.«421324_j60078002536942_3_alg».proof.Proof.Pay01
import proofs.«421324_j60078002536942_3_alg».proof.Proof.Blocks0
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- divCnt at a row depends on that row alone: a block's value at y is the whole arrays' at i once the two reads agree. -/
theorem divCnt_block (S : S100000x128.Idx → EReal) (C : S100000x1.Idx → EReal)
    (bS : S5000x128.Idx → EReal) (bC : S5000x1.Idx → EReal)
    (y : S5000x128.Idx) (i : S100000x128.Idx)
    (hS : bS y = S i)
    (hC : bC (ix2 (⟨(y 0).val, idx2_lt0 y⟩ : Fin 5000) (0 : Fin 1)) = C (ix2 (⟨(i 0).val, idx2_lt0 i⟩ : Fin 100000) (0 : Fin 1))) :
    Cert.Spec.divCnt 5000 bS bC y = Cert.Spec.divCnt 100000 S C i := by
  unfold Cert.Spec.divCnt
  rw [hS, hC]

/-- The printed index maps over the grid: every window is at block (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of divCnt of the arrays as the region finds them. -/
theorem flushed1_eq (c : Dev nD) (t : Fin cfg1.N) :
    (dat1 V c).flushed 2 t = ((cfg1.win 2).blk t).view.read (Elt Ideal)
      (Cert.Spec.divCnt 100000 (V c main_v10) (V c main_v15)) := by
  show (cfg1.win 2).cut (grid1.coords t) ((dat1 V c).after 2 t) = _
  rw [after1_2]
  unfold out1_2
  rw [View.canon_unit_zero hz]
  simp only [View.ld_unit_zero (S := S5000x128) hz, View.ld_unit_zero (S := S5000x1) hz]
  rw [Cert.KernelIdeal.Pay.pay1_eq]
  obtain ⟨e0, e1, e2, e3, e4, e5⟩ := idx_facts1 t
  funext y
  show Cert.Spec.divCnt 5000 (iblk1 V c 0 t) (iblk1 V c 1 t) y
    = Cert.Spec.divCnt 100000 (V c main_v10) (V c main_v15) (((cfg1.win 2).blk t).view.emb y)
  have hy0 : (y 0).val < 5000 := (y 0).isLt
  have hy1 : (y 1).val < 128 := (y 1).isLt
  refine divCnt_block (V c main_v10) (V c main_v15) _ _ y _ ?_ ?_
  · show V c main_v10 (((cfg1.win 0).blk t).view.emb y) = V c main_v10 (((cfg1.win 2).blk t).view.emb y)
    refine congrArg _ (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  · show V c main_v15 (((cfg1.win 1).blk t).view.emb (ix2 (⟨(y 0).val, idx2_lt0 y⟩ : Fin 5000) (0 : Fin 1))) = V c main_v15 _
    refine congrArg _ (funext fun a => Fin.ext ?_)
    match a with
    | ⟨0, _⟩ => show win1_1.index t (0 : Fin 2) * 5000 + 1 * (y 0).val = win1_2.index t (0 : Fin 2) * 5000 + 1 * (y 0).val; omega
    | ⟨1, _⟩ => show win1_1.index t (1 : Fin 2) * 1 + 1 * 0 = 0; omega

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v16).slice (win1_2.rect t)).set ↔ _
  rw [View.set_slice_whole, Rect.mem_set_unit]
  exact Iff.rfl

/-- Row r of the array is in the block of point r / 5000. -/
theorem cover1 (i : S100000x128.Idx) : ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- Region 1's result array after the run. -/
theorem out1_eq (c : Dev nD) : (dat1 V c).arrAt 2 cfg1.N
    = Cert.Spec.divCnt 100000 (V c main_v10) (V c main_v15) :=
  (dat1 V c).arrAt_eq_of_cover 2 _ (fun t _ => flushed1_eq V c t) cover1

end Cert.KernelIdeal.Blocks

end
-- ==== Proof.RefIdx.lean ====
/-
  The reference's stages read at an index, in the vocabulary of Spec.lean: the softmax-weighted combination
  (the stage main_v69) is Spec.combined of the user table, the transposed latent table and the relation combination;
  the mean (main_v30) is the scattered sums over max(count, 1).
-/
import proofs.«421324_j60078002536942_3_alg».proof.Proof.Gen.ReferenceIdeal.Read
import proofs.«421324_j60078002536942_3_alg».proof.Proof.Spec
import Idealize.ShloMosaic.PureOps.Ideal.Laws
import Idealize.ShloMosaic.Lib.Pipeline.Value
import Idealize.ShloMosaic.Lib.ValueIdx
import Idealize.ShloMosaic.Lib.StableHlo.Predicate

set_option maxRecDepth 16384

noncomputable section

namespace Cert.ReferenceIdeal.RefIdx

open Cert.ReferenceIdeal Cert.ReferenceIdeal.Read
open Idealize.ShloMosaic Idealize.ShloMosaic.ValueIdx

/-- The score stage at (u, f) is the dot product of user row u with column f of the transposed latent table. -/
private theorem score_eq (x1 : (⟨S50000x128, .f32⟩ : BufTy).Contents (Elt Ideal)) (x2 : (⟨S4x128, .f32⟩ : BufTy).Contents (Elt Ideal)) (u : Fin 50000) (f : Fin 4) :
    val_main_v32 (F := Ideal) x1 x2 (ix2 u f) = Cert.Spec.score 50000 x1 (val_main_v31 (F := Ideal) x2) u f := by
  rw [val_main_v32_apply]
  unfold Cert.Spec.score
  refine Finset.sum_congr rfl fun k _ => ?_
  have el : lidx_main_v32 (ix2 u f) k = ix2 u k :=
    funext fun a => Fin.ext (by match a with | ⟨0, _⟩ => rfl | ⟨1, _⟩ => rfl)
  have er : ridx_main_v32 (ix2 u f) k = ix2 k f :=
    funext fun a => Fin.ext (by match a with | ⟨0, _⟩ => rfl | ⟨1, _⟩ => rfl)
  rw [el, er]

/-- Row u with the factor k put back on the dropped axis is (u, k). -/
private theorem lift_row (h : S50000x4.Reduces [1] S50000) (u : Fin 50000) (k : Fin (S50000x4.size 1)) :
    h.lift (ix1 u) k = ix2 u (⟨k.val, k.isLt⟩ : Fin 4) := by
  funext c
  apply Fin.ext
  match c with
  | ⟨0, _⟩ => rfl
  | ⟨1, _⟩ => rfl

/-- The row maximum stage at u: the maximum with -∞ of the fold of the four scores from -∞. -/
private theorem rowMax_eq (x1 : (⟨S50000x128, .f32⟩ : BufTy).Contents (Elt Ideal)) (x2 : (⟨S4x128, .f32⟩ : BufTy).Contents (Elt Ideal)) (u : Fin 50000) :
    val_main_v35 (F := Ideal) x1 x2 (ix1 u) = Cert.Spec.rowMax 50000 x1 (val_main_v31 (F := Ideal) x2) u := by
  have h : S50000x4.Reduces [1] S50000 := by decide
  rw [val_main_v35_apply, val_main_v34_apply, val_main_cst_7_apply]
  unfold val_main_v33
  rw [Host.reduce_eq_fold_single (FloatOps.maximumf (F := Ideal) (φ := .f32)) (val_main_v32 (F := Ideal) x1 x2)
    (val_main_cst_6 (F := Ideal)) Gen.reducesTo_S50000x4_S50000_d1 h Gen.h_S_ (ix1 u)]
  have hf : (val_main_v32 (F := Ideal) x1 x2 ∘ h.lift (ix1 u))
      = fun f : Fin 4 => Cert.Spec.score 50000 x1 (val_main_v31 (F := Ideal) x2) u f :=
    funext fun k => (congrArg (val_main_v32 (F := Ideal) x1 x2) (lift_row h u k)).trans (score_eq x1 x2 u _)
  exact congrArg (fun g => max Cert.Spec.negInf (Finset.fold max Cert.Spec.negInf g (Finset.univ : Finset (Fin 4)))) hf

/-- The exponential stage at (u, f): exp(score − row maximum). -/
private theorem expo_eq (x1 : (⟨S50000x128, .f32⟩ : BufTy).Contents (Elt Ideal)) (x2 : (⟨S4x128, .f32⟩ : BufTy).Contents (Elt Ideal)) (u : Fin 50000) (f : Fin 4) :
    val_main_v39 (F := Ideal) x1 x2 (ix2 u f) = Cert.Spec.expo 50000 x1 (val_main_v31 (F := Ideal) x2) u f := by
  have e : idx_main_v36 (idx_main_v37 (ix2 u f)) = ix1 u :=
    funext fun a => Fin.ext (by match a with | ⟨0, _⟩ => rfl)
  rw [val_main_v39_apply, val_main_v38_apply, val_main_v37_apply, val_main_v36_apply, e, score_eq, rowMax_eq]
  simp only [Ideal.hostUnary_exp_def, Ideal.subf_def]
  rfl

/-- The row sum stage at u: the sum of the four exponentials. -/
private theorem rowSum_eq (x1 : (⟨S50000x128, .f32⟩ : BufTy).Contents (Elt Ideal)) (x2 : (⟨S4x128, .f32⟩ : BufTy).Contents (Elt Ideal)) (u : Fin 50000) :
    val_main_v40 (F := Ideal) x1 x2 (ix1 u) = ∑ f' : Fin 4, Cert.Spec.expo 50000 x1 (val_main_v31 (F := Ideal) x2) u f' := by
  rw [val_main_v40_apply, val_main_cst_8_apply]
  simp only [Ideal.ofBits_def, Ideal.ofBits_zero_f32, zero_add]
  refine Finset.sum_congr rfl fun k _ => ?_
  have e : idx_main_v40 (ix1 u) k = ix2 u k :=
    funext fun a => Fin.ext (by match a with | ⟨0, _⟩ => rfl | ⟨1, _⟩ => rfl)
  rw [e, expo_eq]

/-- The softmax quotient stage at (u, f). -/
private theorem soft_eq (x1 : (⟨S50000x128, .f32⟩ : BufTy).Contents (Elt Ideal)) (x2 : (⟨S4x128, .f32⟩ : BufTy).Contents (Elt Ideal)) (u : Fin 50000) (f : Fin 4) :
    val_main_v43 (F := Ideal) x1 x2 (ix2 u f) = Cert.Spec.soft 50000 x1 (val_main_v31 (F := Ideal) x2) u f := by
  have e : idx_main_v41 (idx_main_v42 (ix2 u f)) = ix1 u :=
    funext fun a => Fin.ext (by match a with | ⟨0, _⟩ => rfl)
  rw [val_main_v43_apply, val_main_v42_apply, val_main_v41_apply, e, expo_eq, rowSum_eq]
  simp only [Ideal.hostDivf_def]
  rfl

/-- The attention-weighted combination at (u, d). -/
theorem v69_spec (x1 : (⟨S50000x128, .f32⟩ : BufTy).Contents (Elt Ideal)) (x2 : (⟨S4x128, .f32⟩ : BufTy).Contents (Elt Ideal))
    (x3 : (⟨S32x128, .f32⟩ : BufTy).Contents (Elt Ideal)) (x9 : (⟨S4x32, .f32⟩ : BufTy).Contents (Elt Ideal)) (u : Fin 50000) (d : Fin 128) :
    val_main_v69 (F := Ideal) x1 x2 x3 x9 (ix2 u d)
      = Cert.Spec.combined 50000 x1 (val_main_v31 (F := Ideal) x2) (val_main_v68 (F := Ideal) x3 x9) u d := by
  rw [val_main_v69_apply]
  unfold Cert.Spec.combined
  refine Finset.sum_congr rfl fun k _ => ?_
  have el : lidx_main_v69 (ix2 u d) k = ix2 u k :=
    funext fun a => Fin.ext (by match a with | ⟨0, _⟩ => rfl | ⟨1, _⟩ => rfl)
  have er : ridx_main_v69 (ix2 u d) k = ix2 k d :=
    funext fun a => Fin.ext (by match a with | ⟨0, _⟩ => rfl | ⟨1, _⟩ => rfl)
  rw [el, er, soft_eq]

/-- The mean at (n, d): the scattered sum over max(count, 1). -/
theorem v30_spec (x0 : (⟨S100000x128, .f32⟩ : BufTy).Contents (Elt Ideal)) (x3 : (⟨S32x128, .f32⟩ : BufTy).Contents (Elt Ideal))
    (x4 : (⟨S2x1600000, .i32⟩ : BufTy).Contents (Elt Ideal)) (x5 : (⟨S1600000, .i32⟩ : BufTy).Contents (Elt Ideal)) (n : Fin 100000) (d : Fin 128) :
    val_main_v30 (F := Ideal) x0 x3 x4 x5 (ix2 n d)
      = Ideal.div (val_main_v21 (F := Ideal) x0 x3 x4 x5 (ix2 n d)) (max (val_main_v25 (F := Ideal) x4 (ix1 n)) Cert.Spec.one) := by
  have e : idx_main_v28 (idx_main_v29 (ix2 n d)) = ix1 n :=
    funext fun a => Fin.ext (by match a with | ⟨0, _⟩ => rfl)
  rw [val_main_v30_apply, val_main_v29_apply, val_main_v28_apply, val_main_v27_apply, val_main_v26_apply,
    val_main_cst_5_apply, e]
  simp only [Ideal.hostDivf_def, Ideal.maximumf_def, Ideal.ofBits_def]

end Cert.ReferenceIdeal.RefIdx

end
-- ==== Proof.RefGather.lean ====
/-
  Each of the reference's three gathers, at an index word that names a row of its table, reads that row: the
  negative-index wrap leaves a non-negative word alone and the gather's clamp leaves an in-range row alone.
-/
import proofs.«421324_j60078002536942_3_alg».proof.Proof.Gen.ReferenceIdeal.Read
import Idealize.ShloMosaic.Lib.Pipeline.Value
import Idealize.ShloMosaic.Lib.ValueIdx
import Idealize.ShloMosaic.Lib.StableHlo.Predicate

set_option maxRecDepth 16384

noncomputable section

namespace Cert.ReferenceIdeal.RefGather

open Cert.ReferenceIdeal Cert.ReferenceIdeal.Read
open Idealize.ShloMosaic Idealize.ShloMosaic.ValueIdx

/-! ## The row take: a table [N, D] at a column [n, 1] of start words

  The dimension numbers of `table[idx]` for a rank-2 table: the row axis collapsed and start-indexed, the
  feature axis the one offset axis with the whole row as the slice, the index vector on axis 1 of the start words. -/

/-- The row-take dimension numbers for a table [N, D], start words [n, 1] and a result [n, D]. -/
private abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row take at (e, c): the table at row "start word e, read signed and clamped into [0, N − 1]", column c.
    On the row axis the operand index is the clamped start (no batching, and the axis is collapsed, so no offset);
    on the feature axis it is the result's own coordinate (no start, no batching). -/
private theorem rowDims_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (e : Fin n) (c : Fin D) :
    Host.gather (rowDims N D n wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowDims N D n wf).start (ix2 e c) idx 0 + (rowDims N D n wf).batchCoord (ix2 e c) 0
      + (rowDims N D n wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 e c) ⟨List.idxOf (0 : Fin 2) (rowDims N D n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D n wf).start (ix2 e c) idx 1 + (rowDims N D n wf).batchCoord (ix2 e c) 1
      + (rowDims N D n wf).offCoord (ix2 e c) 1 = _
    rw [GatherDims.batchCoord_eq_zero _ _ _ List.not_mem_nil]
    unfold GatherDims.start
    rw [dif_neg (show (1 : Fin 2) ∉ (rowDims N D n wf).startIndexMap from
      fun h => Nat.one_ne_zero (congrArg Fin.val (List.mem_singleton.mp h)))]
    simp only [Nat.add_zero, Nat.zero_add]
    rfl

/-! ## A start word that names a row -/

/-- A word below a bound of at most 2³¹ is not negative: the wrap of a negative index keeps it. -/
private theorem wrap_keep (w K : BitVec 32) (N : Nat) (hN : N ≤ 2 ^ 31) (h : w.toNat < N) :
    Scalar.select (IntOp.cmpi .slt w 0#32) (IntOp.addi w K) w = w := by
  have hc : IntOp.cmpi .slt w 0#32 = 0#1 := by
    refine eq_zero_of_ne_one (fun h1 => ?_)
    have := (StableHlo.Predicate.slt_iff_toNat (a := w) (b := 0#32) (by omega) (by decide)).mp h1
    simp at this
  rw [hc, select_zero]

/-- The signed value of such a word, clamped to the rows of the table, is the word's value. -/
private theorem clamp_keep (w : BitVec 32) (N : Nat) (hN : N ≤ 2 ^ 31) (h : w.toNat < N) :
    min w.toInt.toNat (N - 1) = w.toNat := by
  rw [StableHlo.Predicate.toInt_eq_toNat_of_lt (by omega), Int.toNat_natCast]
  omega

/-! ## The three gathers -/

/-- The tail gather at an in-range index word reads that row of the entity table. -/
theorem v10_of_lt (x0 : (⟨S100000x128, .f32⟩ : BufTy).Contents (Elt Ideal)) (x4 : (⟨S2x1600000, .i32⟩ : BufTy).Contents (Elt Ideal))
    (e : Fin 1600000) (d : Fin 128) (h : ((x4 : S2x1600000.Idx → BitVec 32) (ix2 (1 : Fin 2) e)).toNat < 100000) :
    val_main_v10 (F := Ideal) x0 x4 (ix2 e d) = (x0 : S100000x128.Idx → EReal) (ix2 ⟨((x4 : S2x1600000.Idx → BitVec 32) (ix2 (1 : Fin 2) e)).toNat, h⟩ d) := by
  -- the start word of result row e is word e of row 1 of the edge table, kept by the wrap
  have hw : val_main_v9 (F := Ideal) x4 (ix2 e (0 : Fin 1)) = (x4 : S2x1600000.Idx → BitVec 32) (ix2 (1 : Fin 2) e) := by
    rw [val_main_v9_apply, val_main_v8_apply, val_main_v5_apply, val_main_v7_apply, val_main_v4_apply, val_main_c_apply,
      val_main_v3_apply, val_main_v2_apply]
    have hidx : idx_main_v2 (idx_main_v3 (idx_main_v9 (ix2 e (0 : Fin 1)))) = ix2 (1 : Fin 2) e := by
      funext a
      match a with
      | ⟨0, _⟩ => rfl
      | ⟨1, _⟩ => exact Fin.ext (show e.val % 1600000 = e.val from Nat.mod_eq_of_lt e.isLt)
    rw [hidx]
    exact wrap_keep _ _ 100000 (by decide) h
  show Host.gather (rowDims 100000 128 1600000 _) x0 (val_main_v9 (F := Ideal) x4) (ix2 e d) = _
  refine (rowDims_apply (by decide) _ x0 _ e d).trans ?_
  refine congrArg (fun r : Fin 100000 => (x0 : S100000x128.Idx → EReal) (ix2 r d)) (Fin.ext ?_)
  show min (val_main_v9 (F := Ideal) x4 (ix2 e (0 : Fin 1))).toInt.toNat (100000 - 1) = _
  rw [hw]
  exact clamp_keep _ 100000 (by decide) h

/-- The relation gather at an in-range type word reads that row of the relation table. -/
theorem v17_of_lt (x3 : (⟨S32x128, .f32⟩ : BufTy).Contents (Elt Ideal)) (x5 : (⟨S1600000, .i32⟩ : BufTy).Contents (Elt Ideal))
    (e : Fin 1600000) (d : Fin 128) (h : ((x5 : S1600000.Idx → BitVec 32) (ix1 e)).toNat < 32) :
    val_main_v17 (F := Ideal) x3 x5 (ix2 e d) = (x3 : S32x128.Idx → EReal) (ix2 ⟨((x5 : S1600000.Idx → BitVec 32) (ix1 e)).toNat, h⟩ d) := by
  -- the start word of result row e is type word e, kept by the wrap
  have hw : val_main_v16 (F := Ideal) x5 (ix2 e (0 : Fin 1)) = (x5 : S1600000.Idx → BitVec 32) (ix1 e) := by
    rw [val_main_v16_apply, val_main_v15_apply, val_main_v12_apply, val_main_v14_apply, val_main_v11_apply, val_main_c_1_apply]
    have hidx : idx_main_v16 (ix2 e (0 : Fin 1)) = ix1 e := by
      funext a
      match a with
      | ⟨0, _⟩ => rfl
    rw [hidx]
    exact wrap_keep _ _ 32 (by decide) h
  show Host.gather (rowDims 32 128 1600000 _) x3 (val_main_v16 (F := Ideal) x5) (ix2 e d) = _
  refine (rowDims_apply (by decide) _ x3 _ e d).trans ?_
  refine congrArg (fun r : Fin 32 => (x3 : S32x128.Idx → EReal) (ix2 r d)) (Fin.ext ?_)
  show min (val_main_v16 (F := Ideal) x5 (ix2 e (0 : Fin 1))).toInt.toNat (32 - 1) = _
  rw [hw]
  exact clamp_keep _ 32 (by decide) h

/-- The interaction gather at an in-range column word reads that row of the entity table. -/
theorem v50_of_lt (x0 : (⟨S100000x128, .f32⟩ : BufTy).Contents (Elt Ideal)) (x7 : (⟨S1000000, .i32⟩ : BufTy).Contents (Elt Ideal))
    (e : Fin 1000000) (d : Fin 128) (h : ((x7 : S1000000.Idx → BitVec 32) (ix1 e)).toNat < 100000) :
    val_main_v50 (F := Ideal) x0 x7 (ix2 e d) = (x0 : S100000x128.Idx → EReal) (ix2 ⟨((x7 : S1000000.Idx → BitVec 32) (ix1 e)).toNat, h⟩ d) := by
  -- the start word of result row e is column word e, kept by the wrap
  have hw : val_main_v49 (F := Ideal) x7 (ix2 e (0 : Fin 1)) = (x7 : S1000000.Idx → BitVec 32) (ix1 e) := by
    rw [val_main_v49_apply, val_main_v48_apply, val_main_v45_apply, val_main_v47_apply, val_main_v44_apply, val_main_c_9_apply]
    have hidx : idx_main_v49 (ix2 e (0 : Fin 1)) = ix1 e := by
      funext a
      match a with
      | ⟨0, _⟩ => rfl
    rw [hidx]
    exact wrap_keep _ _ 100000 (by decide) h
  show Host.gather (rowDims 100000 128 1000000 _) x0 (val_main_v49 (F := Ideal) x7) (ix2 e d) = _
  refine (rowDims_apply (by decide) _ x0 _ e d).trans ?_
  refine congrArg (fun r : Fin 100000 => (x0 : S100000x128.Idx → EReal) (ix2 r d)) (Fin.ext ?_)
  show min (val_main_v49 (F := Ideal) x7 (ix2 e (0 : Fin 1))).toInt.toNat (100000 - 1) = _
  rw [hw]
  exact clamp_keep _ 100000 (by decide) h

end Cert.ReferenceIdeal.RefGather

end
-- ==== Proof.Bridge1.lean ====
/-
  The kernel program's first result is the reference's: under the index ranges the precondition states, the take
  of the tail rows is the reference's gather, the clipped edge types are the edge types, the one-hot selection of a
  relation row is the reference's gather of it, so region 0's array is the reference's edgewise product; the scattered
  sums and counts are then the same scatters of the same arrays, and region 1's quotient is the reference's mean.
-/
import proofs.«421324_j60078002536942_3_alg».proof.Proof.Stages
import proofs.«421324_j60078002536942_3_alg».proof.Proof.Blocks0
import proofs.«421324_j60078002536942_3_alg».proof.Proof.Blocks1
import proofs.«421324_j60078002536942_3_alg».proof.Proof.RefIdx
import proofs.«421324_j60078002536942_3_alg».proof.Proof.RefGather
import proofs.«421324_j60078002536942_3_alg».proof.Proof.TakeFill

set_option maxRecDepth 16384

noncomputable section

namespace Cert.KernelIdeal.Bridge

open Cert.KernelIdeal Cert.KernelIdeal.Gen Cert.KernelIdeal.TakeFill Cert.KernelIdeal.Stages Cert.KernelIdeal.Blocks
open Cert.ReferenceIdeal.Read
open Idealize.ShloMosaic Idealize.ShloMosaic.TcCoe Idealize.ShloMosaic.ValueIdx Idealize.SL.Sem Idealize.ShloMosaic.StableHlo

/-! ## The same operations of the same arrays, in the two programs' spellings -/

section Terms
variable {F : FTy → Type} [FloatOps F]

theorem wrapE_v3 (x4 : (⟨S2x1600000, .i32⟩ : BufTy).Contents (Elt F)) : wrapE (val_main_v3 (F := F) x4) = val_main_v9 (F := F) x4 := rfl
theorem gather_v10 (x0 : (⟨S100000x128, .f32⟩ : BufTy).Contents (Elt F)) (x4 : (⟨S2x1600000, .i32⟩ : BufTy).Contents (Elt F)) :
    Host.gather gather_S100000x128_S1600000x1_S1600000x128_1_0_n_n_0_1_1128 x0 (val_main_v9 (F := F) x4) = val_main_v10 (F := F) x0 x4 := rfl
theorem sums_v21 (x0 : (⟨S100000x128, .f32⟩ : BufTy).Contents (Elt F)) (x3 : (⟨S32x128, .f32⟩ : BufTy).Contents (Elt F))
    (x4 : (⟨S2x1600000, .i32⟩ : BufTy).Contents (Elt F)) (x5 : (⟨S1600000, .i32⟩ : BufTy).Contents (Elt F)) :
    Host.scatterAdd scatter_S100000x128_S1600000x1_S1600000x128_1_0_0_1
        (broadcastInDim S100000x128 ![] bcast_S_S100000x128 (constant (F := F) S_ .f32 0x00000000#32))
        (broadcastInDim S1600000x1 ![0] bcast_S1600000_S1600000x1_0 (val_main_v1 (F := F) x4))
        (val_main_v18 (F := F) x0 x3 x4 x5)
      = val_main_v21 (F := F) x0 x3 x4 x5 := rfl
theorem counts_v25 (x4 : (⟨S2x1600000, .i32⟩ : BufTy).Contents (Elt F)) :
    Host.scatterAdd scatter_S100000_S1600000x1_S1600000_n_0_0_1
        (broadcastInDim S100000 ![] bcast_S_S100000 (constant (F := F) S_ .f32 0x00000000#32))
        (broadcastInDim S1600000x1 ![0] bcast_S1600000_S1600000x1_0 (val_main_v1 (F := F) x4))
        (broadcastInDim S1600000 ![] bcast_S_S1600000 (constant (F := F) S_ .f32 0x3F800000#32))
      = val_main_v25 (F := F) x4 := rfl

/-- The tail word of edge e is row 1, column e of the edge index. -/
theorem v3_at (x4 : (⟨S2x1600000, .i32⟩ : BufTy).Contents (Elt F)) (e : Fin 1600000) :
    val_main_v3 (F := F) x4 (ix1 e) = (x4 : S2x1600000.Idx → BitVec 32) (ix2 (1 : Fin 2) e) := by
  rw [val_main_v3_apply, val_main_v2_apply]
  refine congrArg x4 (funext fun a => Fin.ext ?_)
  match a with
  | ⟨0, _⟩ => rfl
  | ⟨1, _⟩ => exact Nat.mod_eq_of_lt e.isLt

end Terms

variable (m : (ℓ : Loc nD τ sig) → Buf (Elt Ideal) ℓ) (ρ : Dev nD → PrngReg) (c : Dev nD)

/-- The argument arrays as launched. -/
abbrev X0 : (⟨S100000x128, .f32⟩ : BufTy).Contents (Elt Ideal) := m ((c : Thread nD τ).loc main_arg0)
abbrev X3 : (⟨S32x128, .f32⟩ : BufTy).Contents (Elt Ideal) := m ((c : Thread nD τ).loc main_arg3)
abbrev X4 : (⟨S2x1600000, .i32⟩ : BufTy).Contents (Elt Ideal) := m ((c : Thread nD τ).loc main_arg4)
abbrev X5 : (⟨S1600000, .i32⟩ : BufTy).Contents (Elt Ideal) := m ((c : Thread nD τ).loc main_arg5)

/-- The launch contents. -/
theorem W0_at (r : Ref sig .tc) : W0 m ρ c (Proc.devRef .tc r) = m ((c : Thread nD τ).loc r) := rfl

/-! ## Region 0's three arrays -/

theorem V5_arg3 : V5 m ρ c main_arg3 = (X3 m c) := by
  show StableHlo.after hostOps0_4 (StableHlo.after hostOps0_3 (StableHlo.after hostOps0_2 (StableHlo.after hostOps0_1 (StableHlo.after hostOps0 (W0 m ρ c))))) (Proc.devRef .tc main_arg3) = _
  rw [h004_arg3, W0_at]

theorem V5_v4 (hT : ∀ e : Fin 1600000, (((X4 m c) : S2x1600000.Idx → BitVec 32) (ix2 (1 : Fin 2) e)).toNat < 100000) :
    V5 m ρ c main_v4 = val_main_v10 (F := Ideal) (X0 m c) (X4 m c) := by
  show StableHlo.after hostOps0_4 (StableHlo.after hostOps0_3 (StableHlo.after hostOps0_2 (StableHlo.after hostOps0_1 (StableHlo.after hostOps0 (W0 m ρ c))))) (Proc.devRef .tc main_v4) = _
  rw [h024_v4, h01_v4, h0_v3, h0_arg0, W0_at, W0_at, wrapE_v3, gather_v10]
  refine select_maskE _ (fun e => ?_) _ _
  rw [← wrapE_v3, wrapE_at _ e (by rw [v3_at]; exact hT e), v3_at]
  exact hT e

theorem V5_v6_at (hE : ∀ e : Fin 1600000, (((X5 m c) : S1600000.Idx → BitVec 32) (ix1 e)).toNat < 32) (e : Fin 1600000) :
    (V5 m ρ c main_v6 : S1600000x1.Idx → BitVec 32) (ix2 e (0 : Fin 1)) = ((X5 m c) : S1600000.Idx → BitVec 32) (ix1 e) := by
  have h : V5 m ρ c main_v6 = broadcastInDim S1600000x1 ![0] bcast_S1600000_S1600000x1_0
      (minsi (broadcastInDim S1600000 ![] bcast_S_S1600000 (constantI S_ 32 31#32))
        (maxsi (broadcastInDim S1600000 ![] bcast_S_S1600000 (constantI S_ 32 0#32)) (X5 m c))) := by
    show StableHlo.after hostOps0_4 (StableHlo.after hostOps0_3 (StableHlo.after hostOps0_2 (StableHlo.after hostOps0_1 (StableHlo.after hostOps0 (W0 m ρ c))))) (Proc.devRef .tc main_v6) = _
    rw [h004_v6, W0_at]
  rw [h]
  rw [broadcastInDim_apply ![0] bcast_S1600000_S1600000x1_0 _ (ix2 e (0 : Fin 1)) (ix1 e) (fun a => match a with
    | ⟨0, _⟩ => by show e.val = if (1600000 : Nat) = 1 then 0 else e.val; rw [if_neg (by decide)])]
  show IntOp.minsi 31#32 (IntOp.maxsi 0#32 (((X5 m c) : S1600000.Idx → BitVec 32) (ix1 e))) = _
  exact clip_at _ (hE e)

/-- The one-hot sum over the relation rows selects the row the type word names. -/
theorem onehot_sum (w : BitVec 32) (h : w.toNat < 32) (R : Fin 32 → EReal) :
    ∑ k : Fin 32, (if w = BitVec.ofNat 32 k.val then (1 : EReal) else 0) * R k = R ⟨w.toNat, h⟩ := by
  rw [Finset.sum_eq_single (⟨w.toNat, h⟩ : Fin 32)]
  · rw [if_pos (BitVec.eq_of_toNat_eq (by simp only [BitVec.toNat_ofNat]; omega)), one_mul]
  · intro k _ hk
    rw [if_neg, zero_mul]
    intro e
    apply hk
    apply Fin.ext
    have := congrArg BitVec.toNat e
    simp only [BitVec.toNat_ofNat] at this
    have hk' := k.isLt
    show k.val = w.toNat
    omega
  · intro hn; exact absurd (Finset.mem_univ _) hn

/-- relMul of the reference's tail gather, any column that reads the edge types, and the relation table is the
    reference's edgewise product. -/
theorem relMul_ref (x0 : (⟨S100000x128, .f32⟩ : BufTy).Contents (Elt Ideal)) (x3 : (⟨S32x128, .f32⟩ : BufTy).Contents (Elt Ideal))
    (x4 : (⟨S2x1600000, .i32⟩ : BufTy).Contents (Elt Ideal)) (x5 : (⟨S1600000, .i32⟩ : BufTy).Contents (Elt Ideal))
    (E : S1600000x1.Idx → BitVec 32)
    (hE6 : ∀ e : Fin 1600000, E (ix2 e (0 : Fin 1)) = (x5 : S1600000.Idx → BitVec 32) (ix1 e))
    (hE : ∀ e : Fin 1600000, ((x5 : S1600000.Idx → BitVec 32) (ix1 e)).toNat < 32) :
    Cert.Spec.relMul 1600000 (val_main_v10 (F := Ideal) x0 x4) E x3 = val_main_v18 (F := Ideal) x0 x3 x4 x5 := by
  funext j
  obtain ⟨e, d, rfl⟩ : ∃ (e : Fin 1600000) (d : Fin 128), j = ix2 e d := ⟨j 0, j 1, eq_ix2 j⟩
  show (val_main_v10 (F := Ideal) x0 x4 (ix2 e d) : EReal) * ∑ k : Fin 32,
      (if E (ix2 e (0 : Fin 1)) = BitVec.ofNat 32 k.val then (1 : EReal) else 0) * (x3 : S32x128.Idx → EReal) (ix2 k d)
    = (val_main_v10 (F := Ideal) x0 x4 (ix2 e d) : EReal) * val_main_v17 (F := Ideal) x3 x5 (ix2 e d)
  rw [hE6 e, Cert.ReferenceIdeal.RefGather.v17_of_lt x3 x5 e d (hE e)]
  exact congrArg _ (onehot_sum _ (hE e) fun k => (x3 : S32x128.Idx → EReal) (ix2 k d))

/-- Region 0's array is the reference's edgewise product. -/
theorem out0_val (hT : ∀ e : Fin 1600000, ((X4 m c : S2x1600000.Idx → BitVec 32) (ix2 (1 : Fin 2) e)).toNat < 100000)
    (hE : ∀ e : Fin 1600000, ((X5 m c : S1600000.Idx → BitVec 32) (ix1 e)).toNat < 32) :
    Cert.Spec.relMul 1600000 (V5 m ρ c main_v4) (V5 m ρ c main_v6) (V5 m ρ c main_arg3)
      = val_main_v18 (F := Ideal) (X0 m c) (X3 m c) (X4 m c) (X5 m c) := by
  rw [V5_v4 m ρ c hT, V5_arg3 m ρ c]
  exact relMul_ref _ _ _ _ _ (V5_v6_at m ρ c hE) hE

end Cert.KernelIdeal.Bridge

end
-- ==== Proof.Pay2.lean ====
/-
  What the body of the third region stores, read as Spec.lean's userFinal at the block's own shape: the softmax of
  the user block's scores against the latent table, combined with the relation table, gated with the aggregate block.
-/
import proofs.«421324_j60078002536942_3_alg».proof.Proof.Gen.KernelIdeal.Skeleton
import proofs.«421324_j60078002536942_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Pay

open Cert.KernelIdeal Cert.KernelIdeal.Gen
open Idealize.ShloMosaic Idealize.ShloMosaic.ValueIdx

/-! ## The first product: a user row against a column of the latent table -/

private theorem lhsA_0 (i : S5000x4.Idx) (q : dot_S5000x128_S128x4_S5000x4_1_0_0_1_n_n.contr.Idx) :
    (dot_S5000x128_S128x4_S5000x4_1_0_0_1_n_n.lhsIdx i q 0).val = (i 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
private theorem lhsA_1 (i : S5000x4.Idx) (q : dot_S5000x128_S128x4_S5000x4_1_0_0_1_n_n.contr.Idx) :
    (dot_S5000x128_S128x4_S5000x4_1_0_0_1_n_n.lhsIdx i q 1).val = (q ⟨0, by decide⟩).val :=
  dot_S5000x128_S128x4_S5000x4_1_0_0_1_n_n.lhsIdx_val_of_single rfl i q
private theorem rhsA_0 (i : S5000x4.Idx) (q : dot_S5000x128_S128x4_S5000x4_1_0_0_1_n_n.contr.Idx) :
    (dot_S5000x128_S128x4_S5000x4_1_0_0_1_n_n.rhsIdx i q 0).val = (q ⟨0, by decide⟩).val :=
  dot_S5000x128_S128x4_S5000x4_1_0_0_1_n_n.rhsIdx_val_of_single rfl i q
private theorem rhsA_1 (i : S5000x4.Idx) (q : dot_S5000x128_S128x4_S5000x4_1_0_0_1_n_n.contr.Idx) :
    (dot_S5000x128_S128x4_S5000x4_1_0_0_1_n_n.rhsIdx i q 1).val = (i 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-- The [5000,128] × [128,4] product into the zero splat, at (p, f): the sum over the 128 contracted coordinates. -/
private theorem matmulA_apply {φ₁ φ₂ : FTy} (x : FVec Ideal S5000x128 φ₁) (y : FVec Ideal S128x4 φ₂) (p : Fin 5000) (f : Fin 4) :
    matmul dot_S5000x128_S128x4_S5000x4_1_0_0_1_n_n none x y (constant (F := Ideal) S5000x4 .f32 0x00000000#32) (ix2 p f)
      = ∑ k : Fin 128, x (ix2 p k) * y (ix2 k f) := by
  refine (Ideal.matmul_constant_zero_apply dot_S5000x128_S128x4_S5000x4_1_0_0_1_n_n none x y (ix2 p f)).trans ?_
  rw [← Equiv.sum_comp (ValueIdx.contrEquiv1 dot_S5000x128_S128x4_S5000x4_1_0_0_1_n_n 128 rfl rfl).symm]
  refine Finset.sum_congr rfl fun k _ => ?_
  have hk := ValueIdx.contrEquiv1_symm_val dot_S5000x128_S128x4_S5000x4_1_0_0_1_n_n 128 rfl rfl k
  have el : dot_S5000x128_S128x4_S5000x4_1_0_0_1_n_n.lhsIdx (ix2 p f) ((ValueIdx.contrEquiv1 dot_S5000x128_S128x4_S5000x4_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x4_S5000x4_1_0_0_1_n_n.rhsIdx (ix2 p f) ((ValueIdx.contrEquiv1 dot_S5000x128_S128x4_S5000x4_1_0_0_1_n_n 128 rfl rfl).symm k) = ix2 k f := funext fun a => Fin.ext (by
    match a with
    | ⟨0, _⟩ => exact (rhsA_0 _ _).trans hk
    | ⟨1, _⟩ => exact rhsA_1 _ _)
  rw [el, er]

/-! ## The second product: a row of softmax weights against a column of the relation table -/

private theorem lhsB_0 (i : S5000x128.Idx) (q : dot_S5000x4_S4x128_S5000x128_1_0_0_1_n_n.contr.Idx) :
    (dot_S5000x4_S4x128_S5000x128_1_0_0_1_n_n.lhsIdx i q 0).val = (i 0).val := by
  unfold DotDims.lhsIdx
  rw [dif_neg (show ¬(0 : Fin S5000x4.rank) ∈ dot_S5000x4_S4x128_S5000x128_1_0_0_1_n_n.lhsBatch by decide), dif_pos (show (0 : Fin S5000x4.rank) ∈ dot_S5000x4_S4x128_S5000x128_1_0_0_1_n_n.lhsNonContracting by decide)]
  rfl
private theorem lhsB_1 (i : S5000x128.Idx) (q : dot_S5000x4_S4x128_S5000x128_1_0_0_1_n_n.contr.Idx) :
    (dot_S5000x4_S4x128_S5000x128_1_0_0_1_n_n.lhsIdx i q 1).val = (q ⟨0, by decide⟩).val :=
  dot_S5000x4_S4x128_S5000x128_1_0_0_1_n_n.lhsIdx_val_of_single rfl i q
private theorem rhsB_0 (i : S5000x128.Idx) (q : dot_S5000x4_S4x128_S5000x128_1_0_0_1_n_n.contr.Idx) :
    (dot_S5000x4_S4x128_S5000x128_1_0_0_1_n_n.rhsIdx i q 0).val = (q ⟨0, by decide⟩).val :=
  dot_S5000x4_S4x128_S5000x128_1_0_0_1_n_n.rhsIdx_val_of_single rfl i q
private theorem rhsB_1 (i : S5000x128.Idx) (q : dot_S5000x4_S4x128_S5000x128_1_0_0_1_n_n.contr.Idx) :
    (dot_S5000x4_S4x128_S5000x128_1_0_0_1_n_n.rhsIdx i q 1).val = (i 1).val := by
  unfold DotDims.rhsIdx
  rw [dif_neg (show ¬(1 : Fin S4x128.rank) ∈ dot_S5000x4_S4x128_S5000x128_1_0_0_1_n_n.rhsBatch by decide), dif_pos (show (1 : Fin S4x128.rank) ∈ dot_S5000x4_S4x128_S5000x128_1_0_0_1_n_n.rhsNonContracting by decide)]
  rfl

/-- The [5000,4] × [4,128] product into the zero splat, at (p, d): the sum over the 4 contracted coordinates. -/
private theorem matmulB_apply {φ₁ φ₂ : FTy} (x : FVec Ideal S5000x4 φ₁) (y : FVec Ideal S4x128 φ₂) (p : Fin 5000) (d : Fin 128) :
    matmul dot_S5000x4_S4x128_S5000x128_1_0_0_1_n_n none x y (constant (F := Ideal) S5000x128 .f32 0x00000000#32) (ix2 p d)
      = ∑ f : Fin 4, x (ix2 p f) * y (ix2 f d) := by
  refine (Ideal.matmul_constant_zero_apply dot_S5000x4_S4x128_S5000x128_1_0_0_1_n_n none x y (ix2 p d)).trans ?_
  rw [← Equiv.sum_comp (ValueIdx.contrEquiv1 dot_S5000x4_S4x128_S5000x128_1_0_0_1_n_n 4 rfl rfl).symm]
  refine Finset.sum_congr rfl fun k _ => ?_
  have hk := ValueIdx.contrEquiv1_symm_val dot_S5000x4_S4x128_S5000x128_1_0_0_1_n_n 4 rfl rfl k
  have el : dot_S5000x4_S4x128_S5000x128_1_0_0_1_n_n.lhsIdx (ix2 p d) ((ValueIdx.contrEquiv1 dot_S5000x4_S4x128_S5000x128_1_0_0_1_n_n 4 rfl rfl).symm k) = ix2 p k := funext fun a => Fin.ext (by
    match a with
    | ⟨0, _⟩ => exact lhsB_0 _ _
    | ⟨1, _⟩ => exact (lhsB_1 _ _).trans hk)
  have er : dot_S5000x4_S4x128_S5000x128_1_0_0_1_n_n.rhsIdx (ix2 p d) ((ValueIdx.contrEquiv1 dot_S5000x4_S4x128_S5000x128_1_0_0_1_n_n 4 rfl rfl).symm k) = ix2 k d := funext fun a => Fin.ext (by
    match a with
    | ⟨0, _⟩ => exact (rhsB_0 _ _).trans hk
    | ⟨1, _⟩ => exact rhsB_1 _ _)
  rw [el, er]

/-! ## The two reductions over the 4 latent factors of a row -/

/-- The index the reduction over axis 1 inserts coordinate f into, at row p: (p, f). -/
private theorem lift_row (p : Fin 5000) (f : Fin 4) : reduces_S5000x4_S5000.lift (ix1 p) f = ix2 p f :=
  funext fun a => Fin.ext (by
    match a with
    | ⟨0, _⟩ => rfl
    | ⟨1, _⟩ => rfl)

/-- The row maximum from the word of -∞: the fold of max over the row's 4 values. -/
private theorem rowMax_apply (v : FVec Ideal S5000x4 .f32) (hφ : FTy.f32 = FTy.f32 ∨ FTy.f32 = FTy.bf16)
    (hacc : (0xFF800000#32 : BitVec FTy.f32.bits) = 0xFF800000#32) (p : Fin 5000) :
    multiReduction (F := Ideal) .maximumf [1] S5000 v 0xFF800000#32 reduces_S5000x4_S5000 hφ hacc (ix1 p)
      = (Finset.univ : Finset (Fin 4)).fold max (Ideal.ofBits .f32 0xFF800000#32) (fun f => v (ix2 p f)) := by
  refine (Ideal.multiReduction_maximumf_single v 0xFF800000#32 reduces_S5000x4_S5000 hφ hacc (ix1 p)).trans ?_
  refine congrArg (fun g : Fin 4 → EReal => (Finset.univ : Finset (Fin 4)).fold max (Ideal.ofBits .f32 0xFF800000#32) g) ?_
  exact funext fun f => congrArg v (lift_row p f)

/-- The row sum from the zero word: the sum of the row's 4 values. -/
private theorem rowSum_apply (v : FVec Ideal S5000x4 .f32) (hφ : FTy.f32 = FTy.f32 ∨ FTy.f32 = FTy.bf16)
    (hacc : (0x00000000#32 : BitVec FTy.f32.bits) = 0x00000000#32) (p : Fin 5000) :
    multiReduction (F := Ideal) .add [1] S5000 v 0x00000000#32 reduces_S5000x4_S5000 hφ hacc (ix1 p)
      = ∑ f : Fin 4, v (ix2 p f) := by
  refine (Ideal.multiReduction_add_single v 0x00000000#32 reduces_S5000x4_S5000 hφ hacc (ix1 p)).trans ?_
  exact Finset.sum_congr rfl fun f _ => congrArg v (lift_row p f)

/-! ## A per-row value kept as a column and spread over the 4 factors -/

/-- A [5000] vector cast to a [5000,1] column and broadcast to [5000,4] reads, at (p, f), the vector at p. -/
private theorem column_spread_apply {α : Type} (w : S5000.Idx → α) (p : Fin 5000) (f : Fin 4) :
    broadcastTo S5000x4 (shapeCast S5000x1 w shapeCasts_S5000_S5000x1) broadcasts_S5000x1_S5000x4 (ix2 p f) = w (ix1 p) := by
  refine (broadcastTo_apply (shapeCast S5000x1 w shapeCasts_S5000_S5000x1) broadcasts_S5000x1_S5000x4 (ix2 p f) (ix2 p (0 : Fin 1)) fun ax => ?_).trans ?_
  · match ax with
    | ⟨0, _⟩ => rfl
    | ⟨1, _⟩ => rfl
  · exact shapeCast_apply w shapeCasts_S5000_S5000x1 (ix2 p (0 : Fin 1)) (ix1 p) (by
      rw [Shape.rowMajor_val_one, Shape.rowMajor_val_two]
      show p.val = p.val * 1 + 0
      omega)

/-! ## The stored block at (p, d) -/

/-- The exponential at an index, at the ideal values. -/
private theorem exp_apply {s : Shape} {φ : FTy} (v : FVec Ideal s φ) (i : s.Idx) : exp v i = Ideal.exp (v i) := rfl

/-- Region 2's stored block at row p and column d: the softmax weights of row p combined with column d of the relation
    table, times the aggregate block's value there, plus that value. -/
private theorem pay2_at (u : Vec Ideal S5000x128 .f32) (lt : Vec Ideal S128x4 .f32) (dw : Vec Ideal S4x128 .f32) (a : Vec Ideal S5000x128 .f32)
    (p : Fin 5000) (d : Fin 128) :
    k2_pay1 (F := Ideal) u lt dw a (ix2 p d) = Cert.Spec.combined 5000 u lt dw p d * a (ix2 p d) + a (ix2 p d) := by
  unfold k2_pay1 Cert.Spec.combined Cert.Spec.soft Cert.Spec.expo Cert.Spec.rowMax Cert.Spec.score
  -- the closing product and sum, the second product, the quotient, and the numerator's exponential of score minus row maximum
  simp only [addf_apply, mulf_apply, shapeCast_self, matmulB_apply, truncf_apply, divf_apply, exp_apply, subf_apply,
    column_spread_apply, maximumf_apply, broadcast_apply, matmulA_apply, Ideal.ofBits_def]
  -- the denominator: the sum over the row of the same exponentials
  rw [rowSum_apply]
  simp only [exp_apply, subf_apply, column_spread_apply, maximumf_apply, broadcast_apply, matmulA_apply, truncf_apply,
    Ideal.ofBits_def]
  -- the row maximum: the fold of max over the row's scores
  rw [rowMax_apply]
  simp only [matmulA_apply, truncf_apply]

/-- Region 2's stored block. -/
theorem pay2_eq (u : Vec Ideal S5000x128 .f32) (lt : Vec Ideal S128x4 .f32) (dw : Vec Ideal S4x128 .f32) (a : Vec Ideal S5000x128 .f32) :
    (k2_pay1 (F := Ideal) u lt dw a : S5000x128.Idx → EReal) = Cert.Spec.userFinal 5000 u lt dw a := by
  funext j
  obtain ⟨p, q, rfl⟩ : ∃ (p : Fin 5000) (q : Fin 128), j = ix2 p q := ⟨j 0, j 1, eq_ix2 j⟩
  exact pay2_at u lt dw a p q

end Cert.KernelIdeal.Pay

end
-- ==== Proof.Blocks2.lean ====
/-
  Region 2's result array after its 10 grid points: the per-row function userFinal of the four arrays the region
  reads, as it finds them. Point t writes back rows 5000 t … 5000 t + 4999; the user block and the aggregate block at
  point t are the same rows of their arrays and the two small tables are read whole, so what a point stores is that
  block of userFinal of the whole arrays; the 10 blocks tile the array.
-/
import proofs.«421324_j60078002536942_3_alg».proof.Proof.Gen.KernelIdeal.Frame
import proofs.«421324_j60078002536942_3_alg».proof.Proof.Spec
import proofs.«421324_j60078002536942_3_alg».proof.Proof.Pay01
import proofs.«421324_j60078002536942_3_alg».proof.Proof.Pay2
import proofs.«421324_j60078002536942_3_alg».proof.Proof.Blocks0
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- userFinal at a row depends on that row of the user and aggregate arrays and on the two tables alone: a block's
    value at y is the whole arrays' at i once the user rows agree at every column, the tables are the same, the
    aggregate reads agree and the columns are the same. -/
theorem userFinal_block (U : S50000x128.Idx → EReal) (LT : S128x4.Idx → EReal) (DW : S4x128.Idx → EReal) (A : S50000x128.Idx → EReal)
    (bU : S5000x128.Idx → EReal) (bLT : S128x4.Idx → EReal) (bDW : S4x128.Idx → EReal) (bA : S5000x128.Idx → EReal)
    (y : S5000x128.Idx) (i : S50000x128.Idx)
    (hU : ∀ k : Fin 128, bU (ix2 (⟨(y 0).val, idx2_lt0 y⟩ : Fin 5000) k) = U (ix2 (⟨(i 0).val, idx2_lt0 i⟩ : Fin 50000) k))
    (hLT : bLT = LT) (hDW : bDW = DW) (hA : bA y = A i) (h1 : (y 1).val = (i 1).val) :
    Cert.Spec.userFinal 5000 bU bLT bDW bA y = Cert.Spec.userFinal 50000 U LT DW A i := by
  subst hLT hDW
  have hs : ∀ f : Fin 4, Cert.Spec.score 5000 bU bLT (⟨(y 0).val, idx2_lt0 y⟩ : Fin 5000) f
      = Cert.Spec.score 50000 U bLT (⟨(i 0).val, idx2_lt0 i⟩ : Fin 50000) f := by
    intro f
    unfold Cert.Spec.score
    simp only [hU]
  have hc : ∀ d : Fin 128, Cert.Spec.combined 5000 bU bLT bDW (⟨(y 0).val, idx2_lt0 y⟩ : Fin 5000) d
      = Cert.Spec.combined 50000 U bLT bDW (⟨(i 0).val, idx2_lt0 i⟩ : Fin 50000) d := by
    intro d
    unfold Cert.Spec.combined Cert.Spec.soft Cert.Spec.expo Cert.Spec.rowMax
    simp only [hs]
  have hq : (⟨(y 1).val, idx2_lt1 y⟩ : Fin 128) = ⟨(i 1).val, idx2_lt1 i⟩ := Fin.ext h1
  unfold Cert.Spec.userFinal
  rw [hc, hA, hq]

/-- The printed index maps over the grid: every row-tiled window is at block (t, 0), the two tables at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back is block t of userFinal of the arrays as the region finds them. -/
theorem flushed2_eq (c : Dev nD) (t : Fin cfg2.N) :
    (dat2 V c).flushed 4 t = ((cfg2.win 4).blk t).view.read (Elt Ideal)
      (Cert.Spec.userFinal 50000 (V c main_arg1) (V c main_v36) (V c main_v35) (V c main_v23)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x4) hz, View.ld_unit_zero (S := S4x128) hz]
  rw [Cert.KernelIdeal.Pay.pay2_eq]
  obtain ⟨e0, e1, e2, e3, e4, e5, e6, e7, e8, e9⟩ := idx_facts2 t
  funext y
  show Cert.Spec.userFinal 5000 (iblk2 V c 0 t) (iblk2 V c 1 t) (iblk2 V c 2 t) (iblk2 V c 3 t) y
    = Cert.Spec.userFinal 50000 (V c main_arg1) (V c main_v36) (V c main_v35) (V c main_v23) (((cfg2.win 4).blk t).view.emb y)
  have hy0 : (y 0).val < 5000 := (y 0).isLt
  have hy1 : (y 1).val < 128 := (y 1).isLt
  refine userFinal_block (V c main_arg1) (V c main_v36) (V c main_v35) (V c main_v23) _ _ _ _ y _ ?_ ?_ ?_ ?_ ?_
  · intro k
    show V c main_arg1 (((cfg2.win 0).blk t).view.emb (ix2 (⟨(y 0).val, idx2_lt0 y⟩ : Fin 5000) k)) = V c main_arg1 _
    refine congrArg _ (funext fun a => Fin.ext ?_)
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 128 + 1 * k.val = k.val; omega
  · funext z
    show V c main_v36 (((cfg2.win 1).blk t).view.emb z) = V c main_v36 z
    refine congrArg _ (funext fun a => Fin.ext ?_)
    match a with
    | ⟨0, _⟩ => show win2_1.index t (0 : Fin 2) * 128 + 1 * (z 0).val = (z 0).val; omega
    | ⟨1, _⟩ => show win2_1.index t (1 : Fin 2) * 4 + 1 * (z 1).val = (z 1).val; omega
  · funext z
    show V c main_v35 (((cfg2.win 2).blk t).view.emb z) = V c main_v35 z
    refine congrArg _ (funext fun a => Fin.ext ?_)
    match a with
    | ⟨0, _⟩ => show win2_2.index t (0 : Fin 2) * 4 + 1 * (z 0).val = (z 0).val; omega
    | ⟨1, _⟩ => show win2_2.index t (1 : Fin 2) * 128 + 1 * (z 1).val = (z 1).val; omega
  · show V c main_v23 (((cfg2.win 3).blk t).view.emb y) = V c main_v23 (((cfg2.win 4).blk t).view.emb y)
    refine congrArg _ (funext fun a => Fin.ext ?_)
    match a with
    | ⟨0, _⟩ => show win2_3.index t (0 : Fin 2) * 5000 + 1 * (y 0).val = win2_4.index t (0 : Fin 2) * 5000 + 1 * (y 0).val; omega
    | ⟨1, _⟩ => show win2_3.index t (1 : Fin 2) * 128 + 1 * (y 1).val = win2_4.index t (1 : Fin 2) * 128 + 1 * (y 1).val; omega
  · show (y 1).val = win2_4.index t (1 : Fin 2) * 128 + 1 * (y 1).val
    omega

/-- An index of the array is in point t's block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v37).slice (win2_4.rect t)).set ↔ _
  rw [View.set_slice_whole, Rect.mem_set_unit]
  exact Iff.rfl

/-- Row r of the array is in the block of point r / 5000. -/
theorem cover2 (i : S50000x128.Idx) : ∃ t : Fin cfg2.N, (cfg2.win 4).flush t = true ∧ i ∈ ((cfg2.win 4).blk t).view.set := by
  have hN : cfg2.N = 10 := N_2
  have hi0 : (i 0).val < 50000 := (i 0).isLt
  have hi1 : (i 1).val < 128 := (i 1).isLt
  let t : Fin cfg2.N := ⟨(i 0).val / 5000, by rw [hN]; omega⟩
  obtain ⟨-, -, -, -, -, -, -, -, e8, e9⟩ := idx_facts2 t
  have ht : t.val = (i 0).val / 5000 := rfl
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- Region 2's result array after the run. -/
theorem out2_eq (c : Dev nD) : (dat2 V c).arrAt 4 cfg2.N
    = Cert.Spec.userFinal 50000 (V c main_arg1) (V c main_v36) (V c main_v35) (V c main_v23) :=
  (dat2 V c).arrAt_eq_of_cover 4 _ (fun t _ => flushed2_eq V c t) cover2

end Cert.KernelIdeal.Blocks

end
-- ==== Proof.Bridge2.lean ====
/-
  The kernel program's two results are the reference's. The first: the scattered sums and counts are the reference's
  scatters of the same arrays (region 0's array being the reference's edgewise product), and region 1's quotient by
  max(count, 1) is the reference's mean. The second: the take of the interaction columns is the reference's gather, the
  scattered aggregate, the relation combination and the transposed latent table are the reference's stages, and region
  2's softmax-weighted combination, gated with the aggregate, is the reference's.
-/
import proofs.«421324_j60078002536942_3_alg».proof.Proof.Bridge1
import proofs.«421324_j60078002536942_3_alg».proof.Proof.Blocks2

set_option maxRecDepth 16384

noncomputable section

namespace Cert.KernelIdeal.Bridge

open Cert.KernelIdeal Cert.KernelIdeal.Gen Cert.KernelIdeal.TakeFill Cert.KernelIdeal.Stages Cert.KernelIdeal.Blocks
open Cert.ReferenceIdeal.Read
open Idealize.ShloMosaic Idealize.ShloMosaic.TcCoe Idealize.ShloMosaic.ValueIdx Idealize.SL.Sem Idealize.ShloMosaic.StableHlo

section Terms
variable {F : FTy → Type} [FloatOps F]

theorem wrapC_v49 (x7 : (⟨S1000000, .i32⟩ : BufTy).Contents (Elt F)) : wrapC x7 = val_main_v49 (F := F) x7 := rfl
theorem gather_v50 (x0 : (⟨S100000x128, .f32⟩ : BufTy).Contents (Elt F)) (x7 : (⟨S1000000, .i32⟩ : BufTy).Contents (Elt F)) :
    Host.gather gather_S100000x128_S1000000x1_S1000000x128_1_0_n_n_0_1_1128 x0 (val_main_v49 (F := F) x7) = val_main_v50 (F := F) x0 x7 := rfl
theorem agg_v56 (x0 : (⟨S100000x128, .f32⟩ : BufTy).Contents (Elt F)) (x6 x7 : (⟨S1000000, .i32⟩ : BufTy).Contents (Elt F))
    (x8 : (⟨S1000000, .f32⟩ : BufTy).Contents (Elt F)) :
    Host.scatterAdd scatter_S50000x128_S1000000x1_S1000000x128_1_0_0_1
        (broadcastInDim S50000x128 ![] bcast_S_S50000x128 (constant (F := F) S_ .f32 0x00000000#32))
        (broadcastInDim S1000000x1 ![0] bcast_S1000000_S1000000x1_0 x6)
        (mulf (val_main_v50 (F := F) x0 x7)
          (broadcastInDim S1000000x128 ![0, 1] bcast_S1000000x1_S1000000x128_0_1
            (broadcastInDim S1000000x1 ![0] bcast_S1000000_S1000000x1_0 x8)))
      = val_main_v56 (F := F) x0 x6 x7 x8 := rfl

end Terms

variable (m : (ℓ : Loc nD τ sig) → Buf (Elt Ideal) ℓ) (ρ : Dev nD → PrngReg) (c : Dev nD)

abbrev X1 : (⟨S50000x128, .f32⟩ : BufTy).Contents (Elt Ideal) := m ((c : Thread nD τ).loc main_arg1)
abbrev X2 : (⟨S4x128, .f32⟩ : BufTy).Contents (Elt Ideal) := m ((c : Thread nD τ).loc main_arg2)
abbrev X6 : (⟨S1000000, .i32⟩ : BufTy).Contents (Elt Ideal) := m ((c : Thread nD τ).loc main_arg6)
abbrev X7 : (⟨S1000000, .i32⟩ : BufTy).Contents (Elt Ideal) := m ((c : Thread nD τ).loc main_arg7)
abbrev X8 : (⟨S1000000, .f32⟩ : BufTy).Contents (Elt Ideal) := m ((c : Thread nD τ).loc main_arg8)
abbrev X9 : (⟨S4x32, .f32⟩ : BufTy).Contents (Elt Ideal) := m ((c : Thread nD τ).loc main_arg9)

/-! ## The first result -/

theorem W6_v7 (hT : ∀ e : Fin 1600000, ((X4 m c : S2x1600000.Idx → BitVec 32) (ix2 (1 : Fin 2) e)).toNat < 100000)
    (hE : ∀ e : Fin 1600000, ((X5 m c : S1600000.Idx → BitVec 32) (ix1 e)).toNat < 32) :
    W6 m ρ c (Proc.devRef .tc main_v7) = val_main_v18 (F := Ideal) (X0 m c) (X3 m c) (X4 m c) (X5 m c) :=
  (W6_arr m ρ c 3).trans ((out0_eq (V5 m ρ) c).trans (out0_val m ρ c hT hE))

theorem W6_v1 : W6 m ρ c (Proc.devRef .tc main_v1) = val_main_v1 (F := Ideal) (X4 m c) := by
  rw [W6_of_ne m ρ c main_v1 (by decide)]
  show StableHlo.after hostOps0_4 (StableHlo.after hostOps0_3 (StableHlo.after hostOps0_2 (StableHlo.after hostOps0_1 (StableHlo.after hostOps0 (W0 m ρ c))))) (Proc.devRef .tc main_v1) = _
  rw [h014_v1, h0_v1, W0_at]

theorem V7_v10 (hT : ∀ e : Fin 1600000, ((X4 m c : S2x1600000.Idx → BitVec 32) (ix2 (1 : Fin 2) e)).toNat < 100000)
    (hE : ∀ e : Fin 1600000, ((X5 m c : S1600000.Idx → BitVec 32) (ix1 e)).toNat < 32) :
    V7 m ρ c main_v10 = val_main_v21 (F := Ideal) (X0 m c) (X3 m c) (X4 m c) (X5 m c) := by
  show StableHlo.after hostOps1 (W6 m ρ c) (Proc.devRef .tc main_v10) = _
  rw [h1_v10, W6_v1, W6_v7 m ρ c hT hE]
  exact sums_v21 _ _ _ _

theorem V7_v15 : V7 m ρ c main_v15 = broadcastInDim S100000x1 ![0] bcast_S100000_S100000x1_0 (val_main_v25 (F := Ideal) (X4 m c)) := by
  show StableHlo.after hostOps1 (W6 m ρ c) (Proc.devRef .tc main_v15) = _
  rw [h1_v15, W6_v1]
  exact congrArg _ (counts_v25 _)

/-- The scattered sums over max(count, 1), the counts as a column, is the reference's mean. -/
theorem divCnt_ref (x0 : (⟨S100000x128, .f32⟩ : BufTy).Contents (Elt Ideal)) (x3 : (⟨S32x128, .f32⟩ : BufTy).Contents (Elt Ideal))
    (x4 : (⟨S2x1600000, .i32⟩ : BufTy).Contents (Elt Ideal)) (x5 : (⟨S1600000, .i32⟩ : BufTy).Contents (Elt Ideal)) :
    Cert.Spec.divCnt 100000 (val_main_v21 (F := Ideal) x0 x3 x4 x5)
        (broadcastInDim S100000x1 ![0] bcast_S100000_S100000x1_0 (val_main_v25 (F := Ideal) x4))
      = val_main_v30 (F := Ideal) x0 x3 x4 x5 := by
  funext j
  obtain ⟨n, d, rfl⟩ : ∃ (n : Fin 100000) (d : Fin 128), j = ix2 n d := ⟨j 0, j 1, eq_ix2 j⟩
  rw [Cert.ReferenceIdeal.RefIdx.v30_spec]
  show Ideal.div (val_main_v21 (F := Ideal) x0 x3 x4 x5 (ix2 n d))
      (max (broadcastInDim S100000x1 ![0] bcast_S100000_S100000x1_0 (val_main_v25 (F := Ideal) x4) (ix2 n (0 : Fin 1))) Cert.Spec.one) = _
  rw [broadcastInDim_apply ![0] bcast_S100000_S100000x1_0 _ (ix2 n (0 : Fin 1)) (ix1 n) (fun a => match a with
    | ⟨0, _⟩ => by show n.val = if (100000 : Nat) = 1 then 0 else n.val; rw [if_neg (by decide)])]

theorem res0 (hT : ∀ e : Fin 1600000, ((X4 m c : S2x1600000.Idx → BitVec 32) (ix2 (1 : Fin 2) e)).toNat < 100000)
    (hE : ∀ e : Fin 1600000, ((X5 m c : S1600000.Idx → BitVec 32) (ix1 e)).toNat < 32) :
    W11 m ρ c (Proc.devRef .tc main_v16) = val_main_v30 (F := Ideal) (X0 m c) (X3 m c) (X4 m c) (X5 m c) := by
  rw [W11_of_ne m ρ c main_v16 (by decide)]
  show StableHlo.after hostOps2_1 (StableHlo.after hostOps2 (W8 m ρ c)) (Proc.devRef .tc main_v16) = _
  rw [h22_keep _ main_v16 (Or.inr (Or.inr (Or.inr (Or.inr (Or.inr (Or.inr (Or.inr (Or.inr rfl))))))))]
  refine (W8_arr m ρ c 2).trans ((out1_eq (V7 m ρ) c).trans ?_)
  rw [V7_v10 m ρ c hT hE, V7_v15]
  exact divCnt_ref _ _ _ _

/-! ## The second result -/

theorem W8_arg0 : W8 m ρ c (Proc.devRef .tc main_arg0) = X0 m c :=
  (h22_keep (W8 m ρ c) main_arg0 (Or.inl rfl)).symm.trans ((W11_of_ne m ρ c main_arg0 (by decide)).symm.trans (W11_main_arg0 m ρ c))
theorem W8_arg2 : W8 m ρ c (Proc.devRef .tc main_arg2) = X2 m c :=
  (h22_keep (W8 m ρ c) main_arg2 (Or.inr (Or.inr (Or.inl rfl)))).symm.trans ((W11_of_ne m ρ c main_arg2 (by decide)).symm.trans (W11_main_arg2 m ρ c))
theorem W8_arg3 : W8 m ρ c (Proc.devRef .tc main_arg3) = X3 m c :=
  (h22_keep (W8 m ρ c) main_arg3 (Or.inr (Or.inr (Or.inr (Or.inl rfl))))).symm.trans ((W11_of_ne m ρ c main_arg3 (by decide)).symm.trans (W11_main_arg3 m ρ c))
theorem W8_arg6 : W8 m ρ c (Proc.devRef .tc main_arg6) = X6 m c :=
  (h22_keep (W8 m ρ c) main_arg6 (Or.inr (Or.inr (Or.inr (Or.inr (Or.inl rfl)))))).symm.trans ((W11_of_ne m ρ c main_arg6 (by decide)).symm.trans (W11_main_arg6 m ρ c))
theorem W8_arg7 : W8 m ρ c (Proc.devRef .tc main_arg7) = X7 m c :=
  (h22_keep (W8 m ρ c) main_arg7 (Or.inr (Or.inr (Or.inr (Or.inr (Or.inr (Or.inl rfl))))))).symm.trans ((W11_of_ne m ρ c main_arg7 (by decide)).symm.trans (W11_main_arg7 m ρ c))
theorem W8_arg8 : W8 m ρ c (Proc.devRef .tc main_arg8) = X8 m c :=
  (h22_keep (W8 m ρ c) main_arg8 (Or.inr (Or.inr (Or.inr (Or.inr (Or.inr (Or.inr (Or.inl rfl)))))))).symm.trans ((W11_of_ne m ρ c main_arg8 (by decide)).symm.trans (W11_main_arg8 m ρ c))
theorem W8_arg9 : W8 m ρ c (Proc.devRef .tc main_arg9) = X9 m c :=
  (h22_keep (W8 m ρ c) main_arg9 (Or.inr (Or.inr (Or.inr (Or.inr (Or.inr (Or.inr (Or.inr (Or.inl rfl))))))))).symm.trans ((W11_of_ne m ρ c main_arg9 (by decide)).symm.trans (W11_main_arg9 m ρ c))

/-- The user table is region 2's first input window: the region leaves an input's array as it found it. -/
theorem V10_arg1 : V10 m ρ c main_arg1 = X1 m c :=
  ((W11_arr m ρ c 0).trans (((dat2 (V10 m ρ) c).arrAt_in 0 rfl _).trans (A_eq2 (V10 m ρ) c 0))).symm.trans (W11_main_arg1 m ρ c)

theorem V10_v36 : V10 m ρ c main_v36 = val_main_v31 (F := Ideal) (X2 m c) := by
  show StableHlo.after hostOps2_1 (StableHlo.after hostOps2 (W8 m ρ c)) (Proc.devRef .tc main_v36) = _
  rw [h21_v36, h2_keep _ main_arg2 (Or.inr (Or.inl rfl)), W8_arg2]

theorem V10_v35 : V10 m ρ c main_v35 = val_main_v68 (F := Ideal) (X3 m c) (X9 m c) := by
  show StableHlo.after hostOps2_1 (StableHlo.after hostOps2 (W8 m ρ c)) (Proc.devRef .tc main_v35) = _
  rw [h21_v35, h2_keep _ main_arg3 (Or.inr (Or.inr (Or.inl rfl))), h2_keep _ main_arg9 (Or.inr (Or.inr (Or.inr (Or.inr (Or.inr (Or.inr rfl)))))), W8_arg3, W8_arg9]

theorem V10_v23 (hC : ∀ e : Fin 1000000, ((X7 m c : S1000000.Idx → BitVec 32) (ix1 e)).toNat < 100000) :
    V10 m ρ c main_v23 = val_main_v56 (F := Ideal) (X0 m c) (X6 m c) (X7 m c) (X8 m c) := by
  show StableHlo.after hostOps2_1 (StableHlo.after hostOps2 (W8 m ρ c)) (Proc.devRef .tc main_v23) = _
  rw [h21_v23, h2_v17, h2_keep _ main_arg6 (Or.inr (Or.inr (Or.inr (Or.inl rfl)))), h2_keep _ main_arg8 (Or.inr (Or.inr (Or.inr (Or.inr (Or.inr (Or.inl rfl)))))),
    W8_arg0, W8_arg6, W8_arg7, W8_arg8]
  rw [select_maskC _ (fun e => by rw [wrapC_at _ e (hC e)]; exact hC e), wrapC_v49, gather_v50]
  exact agg_v56 _ _ _ _

/-- The softmax-weighted combination gated with the aggregate is the reference's second result. -/
theorem userFinal_ref (x0 : (⟨S100000x128, .f32⟩ : BufTy).Contents (Elt Ideal)) (x1 : (⟨S50000x128, .f32⟩ : BufTy).Contents (Elt Ideal))
    (x2 : (⟨S4x128, .f32⟩ : BufTy).Contents (Elt Ideal)) (x3 : (⟨S32x128, .f32⟩ : BufTy).Contents (Elt Ideal))
    (x6 x7 : (⟨S1000000, .i32⟩ : BufTy).Contents (Elt Ideal)) (x8 : (⟨S1000000, .f32⟩ : BufTy).Contents (Elt Ideal))
    (x9 : (⟨S4x32, .f32⟩ : BufTy).Contents (Elt Ideal)) :
    Cert.Spec.userFinal 50000 x1 (val_main_v31 (F := Ideal) x2) (val_main_v68 (F := Ideal) x3 x9) (val_main_v56 (F := Ideal) x0 x6 x7 x8)
      = val_main_v71 (F := Ideal) x0 x1 x2 x3 x6 x7 x8 x9 := by
  funext j
  obtain ⟨u, d, rfl⟩ : ∃ (u : Fin 50000) (d : Fin 128), j = ix2 u d := ⟨j 0, j 1, eq_ix2 j⟩
  show Cert.Spec.combined 50000 x1 (val_main_v31 (F := Ideal) x2) (val_main_v68 (F := Ideal) x3 x9) u d
      * val_main_v56 (F := Ideal) x0 x6 x7 x8 (ix2 u d) + val_main_v56 (F := Ideal) x0 x6 x7 x8 (ix2 u d) = _
  rw [← Cert.ReferenceIdeal.RefIdx.v69_spec]
  rfl

theorem res1 (hC : ∀ e : Fin 1000000, ((X7 m c : S1000000.Idx → BitVec 32) (ix1 e)).toNat < 100000) :
    W11 m ρ c (Proc.devRef .tc main_v37)
      = val_main_v71 (F := Ideal) (X0 m c) (X1 m c) (X2 m c) (X3 m c) (X6 m c) (X7 m c) (X8 m c) (X9 m c) := by
  refine (W11_arr m ρ c 4).trans ((out2_eq (V10 m ρ) c).trans ?_)
  rw [V10_arg1, V10_v36, V10_v35, V10_v23 m ρ c hC]
  exact userFinal_ref _ _ _ _ _ _ _ _

end Cert.KernelIdeal.Bridge

end
-- ==== Proof.lean ====
/-
  The certificate's five claims.

  The precondition carries, beside the finiteness of the float inputs, the evident domain of the three index inputs
  that are used as gather indices: every tail index and every interaction column in [0, 100000) and every edge type in
  [0, 32) (outside it the reference indexes out of range, and the two programs treat such an index differently: the
  kernel's take fills, the reference's gather clamps; the kernel clips the edge type where the reference wraps it).

  The frames of the kernel and of its idealization are the generated frame certificates; the reference's frame is its
  generated run with the results dropped; the idealization rewrote nothing, so preserves is trivial. The algebraic
  claim: both programs end with the reference's two stages of the shared arguments — the kernel's run with its
  results named ends at the last segment boundary's contents, which Bridge2.lean reads back to those stages through the
  three regions (each region's array one per-row function of its input arrays, Blocks0-2.lean over the payload readings
  Pay01.lean, Pay2.lean) and the host operations between them (Stages.lean), under the index ranges Pre.lean reads out
  of the precondition; no step needs the finiteness of the inputs.
-/
import proofs.«421324_j60078002536942_3_alg».proof.Defs
import proofs.«421324_j60078002536942_3_alg».proof.Proof.Gen.Kernel
import proofs.«421324_j60078002536942_3_alg».proof.Proof.Gen.Kernel.Skeleton
import proofs.«421324_j60078002536942_3_alg».proof.Proof.Gen.Kernel.Launch
import proofs.«421324_j60078002536942_3_alg».proof.Proof.Gen.Kernel.Points
import proofs.«421324_j60078002536942_3_alg».proof.Proof.Gen.Kernel.Frame
import proofs.«421324_j60078002536942_3_alg».proof.Proof.Gen.KernelIdeal
import proofs.«421324_j60078002536942_3_alg».proof.Proof.Gen.KernelIdeal.Skeleton
import proofs.«421324_j60078002536942_3_alg».proof.Proof.Gen.KernelIdeal.Launch
import proofs.«421324_j60078002536942_3_alg».proof.Proof.Gen.KernelIdeal.Points
import proofs.«421324_j60078002536942_3_alg».proof.Proof.Gen.KernelIdeal.Frame
import proofs.«421324_j60078002536942_3_alg».proof.Proof.Gen.ReferenceIdeal
import proofs.«421324_j60078002536942_3_alg».proof.Proof.Gen.Pre_finite_inputs
import proofs.«421324_j60078002536942_3_alg».proof.Proof.Gen.ReferenceIdeal.Run
import proofs.«421324_j60078002536942_3_alg».proof.Proof.Gen.ReferenceIdeal.Read
import proofs.«421324_j60078002536942_3_alg».proof.Proof.KRun
import proofs.«421324_j60078002536942_3_alg».proof.Proof.Pre
import proofs.«421324_j60078002536942_3_alg».proof.Proof.Bridge2
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal.Bridge in
/-- Both programs end with the reference's mean stage and its gated combination stage of the shared arguments. -/
theorem algebraic : Cert.algebraic_KernelIdeal_ReferenceIdeal := by
  intro m ρ m' ρ' hpre hagree
  have hT := fun c => Cert.KernelIdeal.PreRead.tail_lt m hpre c
  have hE := fun c => Cert.KernelIdeal.PreRead.etype_lt m hpre c
  have hC := fun c => Cert.KernelIdeal.PreRead.cols_lt m hpre c
  refine ⟨fun c => Cert.ReferenceIdeal.Read.val_main_v30 (F := Ideal) (X0 m c) (X3 m c) (X4 m c) (X5 m c),
    fun c => Cert.ReferenceIdeal.Read.val_main_v71 (F := Ideal) (X0 m c) (X1 m c) (X2 m c) (X3 m c) (X6 m c) (X7 m c) (X8 m c) (X9 m c),
    ?_, ?_⟩
  · exact (θ_run Cert.KernelIdeal.defs _ _).mono
      (fun r h c => ⟨(h c).1.trans (res0 m ρ c (hT c) (hE c)), (h c).2.1.trans (res1 m ρ c (hC c)), (h c).2.2⟩)
      (Cert.KernelIdeal.Named.run_named (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    refine ⟨(h c).1.trans ?_, (h c).2.1.trans ?_, (h c).2.2⟩
    · rw [Cert.ReferenceIdeal.Read.val_main_v30_eq, e0, e3, e4, e5]
    · rw [Cert.ReferenceIdeal.Read.val_main_v71_eq, e0, e1, e2, e3, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
